-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S2048x1024 : Shape := ⟨2, ![2048, 1024]⟩
abbrev S1x1024 : Shape := ⟨2, ![1, 1024]⟩
abbrev S7x1x1024 : Shape := ⟨3, ![7, 1, 1024]⟩
abbrev S7 : Shape := ⟨1, ![7]⟩
abbrev S_ : Shape := ⟨0, ![]⟩
abbrev S1024 : Shape := ⟨1, ![1024]⟩
abbrev S1 : Shape := ⟨1, ![1]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S1x1024, .f32⟩
  | .local _ .vmem, ⟨3, _⟩ => ⟨S7x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v102 : BitVec 32 := Scalar.addi v2 c1_i32_67
  let c8_i32_68 : BitVec 32 := 8#32
  let c0_i32_69 : BitVec 32 := 0#32
  let v103 : BitVec 1 := Scalar.cmpi .eq c8_i32_68 c0_i32_69
  let c1_i32_70 : BitVec 32 := 1#32
  let v104 : BitVec 32 := Scalar.select v103 c1_i32_70 c8_i32_68
  let v105 : BitVec 32 := Scalar.remsi v102 v104
  let c0_i32_72 : BitVec 32 := 0#32
  let v107 : BitVec 1 := Scalar.cmpi .slt v105 c0_i32_72
  let c0_i32_73 : BitVec 32 := 0#32
  let v108 : BitVec 1 := Scalar.cmpi .slt v104 c0_i32_73
  let v109 : BitVec 1 := Scalar.xori v107 v108
  let c0_i32_71 : BitVec 32 := 0#32
  let v106 : BitVec 1 := Scalar.cmpi .ne v105 c0_i32_71
  let v110 : BitVec 1 := Scalar.andi v109 v106
  let v111 : BitVec 32 := Scalar.addi v105 v104
  let v112 : BitVec 32 := Scalar.select v110 v111 v105
  let c1_i32_77 : BitVec 32 := 1#32
  let v113 : BitVec 32 := Scalar.muli v112 c1_i32_77
  let v114 : BitVec 32 := Scalar.addi c0_i32_78 v113
  v114.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v121 : BitVec 32 := Scalar.addi v2 c2_i32_81
  let c8_i32_82 : BitVec 32 := 8#32
  let c0_i32_83 : BitVec 32 := 0#32
  let v122 : BitVec 1 := Scalar.cmpi .eq c8_i32_82 c0_i32_83
  let c1_i32_84 : BitVec 32 := 1#32
  let v123 : BitVec 32 := Scalar.select v122 c1_i32_84 c8_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  let c1_i32_91 : BitVec 32 := 1#32
  let v132 : BitVec 32 := Scalar.muli v131 c1_i32_91
  let v133 : BitVec 32 := Scalar.addi c0_i32_92 v132
  v133.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v140 : BitVec 32 := Scalar.addi v2 c3_i32_95
  let c8_i32_96 : BitVec 32 := 8#32
  let c0_i32_97 : BitVec 32 := 0#32
  let v141 : BitVec 1 := Scalar.cmpi .eq c8_i32_96 c0_i32_97
  let c1_i32_98 : BitVec 32 := 1#32
  let v142 : BitVec 32 := Scalar.select v141 c1_i32_98 c8_i32_96
  let v143 : BitVec 32 := Scalar.remsi v140 v142
  let c0_i32_100 : BitVec 32 := 0#32
  let v145 : BitVec 1 := Scalar.cmpi .slt v143 c0_i32_100
  let c0_i32_101 : BitVec 32 := 0#32
  let v146 : BitVec 1 := Scalar.cmpi .slt v142 c0_i32_101
  let v147 : BitVec 1 := Scalar.xori v145 v146
  let c0_i32_99 : BitVec 32 := 0#32
  let v144 : BitVec 1 := Scalar.cmpi .ne v143 c0_i32_99
  let v148 : BitVec 1 := Scalar.andi v147 v144
  let v149 : BitVec 32 := Scalar.addi v143 v142
  let v150 : BitVec 32 := Scalar.select v148 v149 v143
  let c1_i32_105 : BitVec 32 := 1#32
  let v151 : BitVec 32 := Scalar.muli v150 c1_i32_105
  let v152 : BitVec 32 := Scalar.addi c0_i32_106 v151
  v152.toNat
def k0_dev11 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_109 : BitVec 32 := 4#32
  let v159 : BitVec 32 := Scalar.addi v2 c4_i32_109
  let c8_i32_110 : BitVec 32 := 8#32
  let c0_i32_111 : BitVec 32 := 0#32
  let v160 : BitVec 1 := Scalar.cmpi .eq c8_i32_110 c0_i32_111
  let c1_i32_112 : BitVec 32 := 1#32
  let v161 : BitVec 32 := Scalar.select v160 c1_i32_112 c8_i32_110
  let v162 : BitVec 32 := Scalar.remsi v159 v161
  let c0_i32_114 : BitVec 32 := 0#32
  let v164 : BitVec 1 := Scalar.cmpi .slt v162 c0_i32_114
  let c0_i32_115 : BitVec 32 := 0#32
  let v165 : BitVec 1 := Scalar.cmpi .slt v161 c0_i32_115
  let v166 : BitVec 1 := Scalar.xori v164 v165
  let c0_i32_113 : BitVec 32 := 0#32
  let v163 : BitVec 1 := Scalar.cmpi .ne v162 c0_i32_113
  let v167 : BitVec 1 := Scalar.andi v166 v163
  let v168 : BitVec 32 := Scalar.addi v162 v161
  let v169 : BitVec 32 := Scalar.select v167 v168 v162
  let c1_i32_119 : BitVec 32 := 1#32
  let v170 : BitVec 32 := Scalar.muli v169 c1_i32_119
  let v171 : BitVec 32 := Scalar.addi c0_i32_120 v170
  v171.toNat
def k0_dev12 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_123 : BitVec 32 := 5#32
  let v178 : BitVec 32 := Scalar.addi v2 c5_i32_123
  let c8_i32_124 : BitVec 32 := 8#32
  let c0_i32_125 : BitVec 32 := 0#32
  let v179 : BitVec 1 := Scalar.cmpi .eq c8_i32_124 c0_i32_125
  let c1_i32_126 : BitVec 32 := 1#32
  let v180 : BitVec 32 := Scalar.select v179 c1_i32_126 c8_i32_124
  let v181 : BitVec 32 := Scalar.remsi v178 v180
  let c0_i32_128 : BitVec 32 := 0#32
  let v183 : BitVec 1 := Scalar.cmpi .slt v181 c0_i32_128
  let c0_i32_129 : BitVec 32 := 0#32
  let v184 : BitVec 1 := Scalar.cmpi .slt v180 c0_i32_129
  let v185 : BitVec 1 := Scalar.xori v183 v184
  let c0_i32_127 : BitVec 32 := 0#32
  let v182 : BitVec 1 := Scalar.cmpi .ne v181 c0_i32_127
  let v186 : BitVec 1 := Scalar.andi v185 v182
  let v187 : BitVec 32 := Scalar.addi v181 v180
  let v188 : BitVec 32 := Scalar.select v186 v187 v181
  let c1_i32_133 : BitVec 32 := 1#32
  let v189 : BitVec 32 := Scalar.muli v188 c1_i32_133
  let v190 : BitVec 32 := Scalar.addi c0_i32_134 v189
  v190.toNat
def k0_dev13 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_137 : BitVec 32 := 6#32
  let v197 : BitVec 32 := Scalar.addi v2 c6_i32_137
  let c8_i32_138 : BitVec 32 := 8#32
  let c0_i32_139 : BitVec 32 := 0#32
  let v198 : BitVec 1 := Scalar.cmpi .eq c8_i32_138 c0_i32_139
  let c1_i32_140 : BitVec 32 := 1#32
  let v199 : BitVec 32 := Scalar.select v198 c1_i32_140 c8_i32_138
  let v200 : BitVec 32 := Scalar.remsi v197 v199
  let c0_i32_142 : BitVec 32 := 0#32
  let v202 : BitVec 1 := Scalar.cmpi .slt v200 c0_i32_142
  let c0_i32_143 : BitVec 32 := 0#32
  let v203 : BitVec 1 := Scalar.cmpi .slt v199 c0_i32_143
  let v204 : BitVec 1 := Scalar.xori v202 v203
  let c0_i32_141 : BitVec 32 := 0#32
  let v201 : BitVec 1 := Scalar.cmpi .ne v200 c0_i32_141
  let v205 : BitVec 1 := Scalar.andi v204 v201
  let v206 : BitVec 32 := Scalar.addi v200 v199
  let v207 : BitVec 32 := Scalar.select v205 v206 v200
  let c1_i32_147 : BitVec 32 := 1#32
  let v208 : BitVec 32 := Scalar.muli v207 c1_i32_147
  let v209 : BitVec 32 := Scalar.addi c0_i32_148 v208
  v209.toNat
def k0_dev14 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_151 : BitVec 32 := 7#32
  let v216 : BitVec 32 := Scalar.addi v2 c7_i32_151
  let c8_i32_152 : BitVec 32 := 8#32
  let c0_i32_153 : BitVec 32 := 0#32
  let v217 : BitVec 1 := Scalar.cmpi .eq c8_i32_152 c0_i32_153
  let c1_i32_154 : BitVec 32 := 1#32
  let v218 : BitVec 32 := Scalar.select v217 c1_i32_154 c8_i32_152
  let v219 : BitVec 32 := Scalar.remsi v216 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let c1_i32_161 : BitVec 32 := 1#32
  let v227 : BitVec 32 := Scalar.muli v226 c1_i32_161
  let v228 : BitVec 32 := Scalar.addi c0_i32_162 v227
  v228.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  hamt_7 : (7#32 : BitVec 32).msb = false
  inb_S7_S1_0 : ∀ a, (![0] : Fin 1 → Nat) a + S1.size a ≤ S7.size a
  squeezes_S1_S_ : S1.Squeezes S_
  inb_S7x1x1024_S1x1x1024_0_0_0 : ∀ a, (![0, 0, 0] : Fin 3 → Nat) a + S1x1x1024.size a ≤ S7x1x1024.size a
  squeezes_S1x1x1024_S1x1024 : S1x1x1024.Squeezes S1x1024
  inb_S7_S1_1 : ∀ a, (![1] : Fin 1 → Nat) a + S1.size a ≤ S7.size a
  inb_S7x1x1024_S1x1x1024_1_0_0 : ∀ a, (![1, 0, 0] : Fin 3 → Nat) a + S1x1x1024.size a ≤ S7x1x1024.size a
  inb_S7_S1_2 : ∀ a, (![2] : Fin 1 → Nat) a + S1.size a ≤ S7.size a
  inb_S7x1x1024_S1x1x1024_2_0_0 : ∀ a, (![2, 0, 0] : Fin 3 → Nat) a + S1x1x1024.size a ≤ S7x1x1024.size a
  inb_S7_S1_3 : ∀ a, (![3] : Fin 1 → Nat) a + S1.size a ≤ S7.size a
  inb_S7x1x1024_S1x1x1024_3_0_0 : ∀ a, (![3, 0, 0] : Fin 3 → Nat) a + S1x1x1024.size a ≤ S7x1x1024.size a
  inb_S7_S1_4 : ∀ a, (![4] : Fin 1 → Nat) a + S1.size a ≤ S7.size a
  inb_S7x1x1024_S1x1x1024_4_0_0 : ∀ a, (![4, 0, 0] : Fin 3 → Nat) a + S1x1x1024.size a ≤ S7x1x1024.size a
  inb_S7_S1_5 : ∀ a, (![5] : Fin 1 → Nat) a + S1.size a ≤ S7.size a
  inb_S7x1x1024_S1x1x1024_5_0_0 : ∀ a, (![5, 0, 0] : Fin 3 → Nat) a + S1x1x1024.size a ≤ S7x1x1024.size a
  inb_S7_S1_6 : ∀ a, (![6] : Fin 1 → Nat) a + S1.size a ≤ S7.size a
  inb_S7x1x1024_S1x1x1024_6_0_0 : ∀ a, (![6, 0, 0] : Fin 3 → Nat) a + S1x1x1024.size a ≤ S7x1x1024.size a
  h_S1x1x1024 : 0 < S1x1x1024.numel
  shapeCasts_S1x1x1024_S1x1024 : S1x1x1024.ShapeCasts S1x1024
  hcc0_scratch2 : 2 + S7.numel ≤ 16
  hcc0_scratch3 : 9 + S7.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch2 : DmaSems sig S7 := SemArray.consecutive 2 S7 hcc0_scratch2
abbrev cc0_scratch3 : DmaSems sig S7 := SemArray.consecutive 9 S7 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S16384x1024_S1024_d0 : S16384x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)

variable [Facts₀]

class Facts : Prop extends Facts₀ where

variable [Facts]
-- ==== Proof.KernelIdeal.ValueSpec.lean ====
/-
  The value each device ends with, as ONE pure function of the eight devices' blocks — stated over the
  printed body's own payload terms, at any float instance.

  Device `k` first stores the column sums of its block, `colsums x_k` (a `[1, 1024]` row: the sum over the
  block's 2048 rows, column by column). Slot `j` of device `c`'s receive buffer is written by the device
  `j + 1` places before `c` on the ring of eight, `sender c j`; it holds that device's row, read back as a
  `[1, 1, 1024]` vector. Device `c`'s result is its own row plus the seven received rows, slot 0 first,
  times the constant 2⁻¹⁴ = 1/16384.
-/
import proofs.«900949_g7700000000000950_dist_mean_ax0_shard0_i_m2048_n1024_v7x_i8_f32_1_alg».proof.Proof.Gen.KernelIdeal.Skeleton

noncomputable section

namespace Cert.KernelIdeal.Spec

open Cert.KernelIdeal Cert.KernelIdeal.Gen Idealize.ShloMosaic

variable {F : FTy → Type} [FloatOps F]

/-- The device `d + 1` places after `c` on the ring: the target of `c`'s `d`-th signal and `d`-th copy. -/
def target (c : Dev nD) (d : Fin 7) : Dev nD := ⟨(c.val + (d.val + 1)) % 8, Nat.mod_lt _ (by decide)⟩

/-- The device `j + 1` places before `c`: the one whose copy lands in slot `j` of `c`'s receive buffer. -/
def sender (c : Dev nD) (j : Fin 7) : Dev nD := ⟨(c.val + (7 - j.val)) % 8, Nat.mod_lt _ (by decide)⟩

theorem sender_target (c : Dev nD) (d : Fin 7) : sender (target c d) d = c := by revert c d; decide
theorem target_sender (c : Dev nD) (j : Fin 7) : target (sender c j) j = c := by revert c j; decide
theorem target_ne (c : Dev nD) (d : Fin 7) : target c d ≠ c := by revert c d; decide
theorem target_inj (c : Dev nD) (d d' : Fin 7) (h : target c d = target c d') : d = d' := by revert c d d'; decide

/-- The column sums of a block, as the body stores them: a `[1, 1024]` row. -/
def colsums (x : Vec F S2048x1024 .f32) : FVec F S1x1024 .f32 := k0_pay2 (k0_pay1 x)

/-- A `[1, 1024]` row seen as the `[1, 1, 1024]` vector a slot of the receive buffer is read as. -/
def asSlot (a : FVec F S1x1024 .f32) : Vec F S1x1x1024 .f32 := shapeCast S1x1x1024 a (by decide)

/-- Device `c`'s result from the eight devices' rows: its own, plus slots 0 … 6 in that order, scaled. -/
def result (a : Dev nD → FVec F S1x1024 .f32) (c : Dev nD) : FVec F S1x1024 .f32 :=
  k0_pay5 (k0_pay4 (k0_pay3 (a c) (asSlot (a (sender c 0))) (asSlot (a (sender c 1))))
      (asSlot (a (sender c 2))) (asSlot (a (sender c 3))) (asSlot (a (sender c 4))))
    (asSlot (a (sender c 5))) (asSlot (a (sender c 6)))

end Cert.KernelIdeal.Spec

end
-- ==== Proof.KernelIdeal.Mesh.lean ====
/-
  The ring of eight devices: the printed device chains in closed form.

  The body computes the device its `d`-th signal and its `d`-th copy address as `(me + d) mod 8` by a chain of
  word operations (a signed remainder made non-negative). Over the eight devices each chain is decided to be
  `target c (d - 1)`, the device `d` places after `c`.
-/
import proofs.«900949_g7700000000000950_dist_mean_ax0_shard0_i_m2048_n1024_v7x_i8_f32_1_alg».proof.Proof.KernelIdeal.ValueSpec

namespace Cert.KernelIdeal.Mesh

open Cert.KernelIdeal Cert.KernelIdeal.Gen Cert.KernelIdeal.Spec Idealize.ShloMosaic

/-- The 1st signal goes to the device 1 place after `c`. -/
theorem sig1_eq (c : Dev nD) : (⟨k0_dev1 c, k0_dev1_lt c⟩ : Dev nD) = target c 0 := by revert c; decide +kernel
/-- The 2nd signal goes to the device 2 places after `c`. -/
theorem sig2_eq (c : Dev nD) : (⟨k0_dev2 c, k0_dev2_lt c⟩ : Dev nD) = target c 1 := by revert c; decide +kernel
/-- The 3rd signal goes to the device 3 places after `c`. -/
theorem sig3_eq (c : Dev nD) : (⟨k0_dev3 c, k0_dev3_lt c⟩ : Dev nD) = target c 2 := by revert c; decide +kernel
/-- The 4th signal goes to the device 4 places after `c`. -/
theorem sig4_eq (c : Dev nD) : (⟨k0_dev4 c, k0_dev4_lt c⟩ : Dev nD) = target c 3 := by revert c; decide +kernel
/-- The 5th signal goes to the device 5 places after `c`. -/
theorem sig5_eq (c : Dev nD) : (⟨k0_dev5 c, k0_dev5_lt c⟩ : Dev nD) = target c 4 := by revert c; decide +kernel
/-- The 6th signal goes to the device 6 places after `c`. -/
theorem sig6_eq (c : Dev nD) : (⟨k0_dev6 c, k0_dev6_lt c⟩ : Dev nD) = target c 5 := by revert c; decide +kernel
/-- The 7th signal goes to the device 7 places after `c`. -/
theorem sig7_eq (c : Dev nD) : (⟨k0_dev7 c, k0_dev7_lt c⟩ : Dev nD) = target c 6 := by revert c; decide +kernel
/-- The 1st copy goes to the device 1 place after `c`. -/
theorem cpy1_eq (c : Dev nD) : (⟨k0_dev8 c, k0_dev8_lt c⟩ : Dev nD) = target c 0 := by revert c; decide +kernel
/-- The 2nd copy goes to the device 2 places after `c`. -/
theorem cpy2_eq (c : Dev nD) : (⟨k0_dev9 c, k0_dev9_lt c⟩ : Dev nD) = target c 1 := by revert c; decide +kernel
/-- The 3rd copy goes to the device 3 places after `c`. -/
theorem cpy3_eq (c : Dev nD) : (⟨k0_dev10 c, k0_dev10_lt c⟩ : Dev nD) = target c 2 := by revert c; decide +kernel
/-- The 4th copy goes to the device 4 places after `c`. -/
theorem cpy4_eq (c : Dev nD) : (⟨k0_dev11 c, k0_dev11_lt c⟩ : Dev nD) = target c 3 := by revert c; decide +kernel
/-- The 5th copy goes to the device 5 places after `c`. -/
theorem cpy5_eq (c : Dev nD) : (⟨k0_dev12 c, k0_dev12_lt c⟩ : Dev nD) = target c 4 := by revert c; decide +kernel
/-- The 6th copy goes to the device 6 places after `c`. -/
theorem cpy6_eq (c : Dev nD) : (⟨k0_dev13 c, k0_dev13_lt c⟩ : Dev nD) = target c 5 := by revert c; decide +kernel
/-- The 7th copy goes to the device 7 places after `c`. -/
theorem cpy7_eq (c : Dev nD) : (⟨k0_dev14 c, k0_dev14_lt c⟩ : Dev nD) = target c 6 := by revert c; decide +kernel

end Cert.KernelIdeal.Mesh
-- ==== Proof.KernelIdeal.Sched.lean ====
/-
  The cross-device protocol of the ring of eight, as a schedule of rounds.

  Every device has ONE barrier cell (the runtime's barrier semaphore), seven send cells and seven receive
  cells (its own DMA semaphores), each with a single round.
  * Barrier cell of `c`: seven duties of one unit, duty `d` paid by `sender c d` (the device `d + 1` places
    before `c`, whose `d`-th signal addresses `c`). With it that device lends `c` slot `6 - d` of its own receive
    buffer — the slot `c`'s copy number `6 - d` lands in — and the fact that it has reached round 0 of that
    slot's receive cell. `c` waits for all seven at once, so after the wait it holds every slot it writes to.
  * Receive cell `j` of `c`: one duty, paid by the copy of `sender c j`; it hands `c` its slot `j` holding that
    device's row of column sums.
  * Send cell `j` of `c`: one duty, paid by `c`'s own copy number `j` once the source is read; it hands back
    the read share of the row buffer the copy was lent.
  All seven slots of a receive buffer are parts of ONE buffer function (`recvFill`), so they join back whole.
-/
import proofs.«900949_g7700000000000950_dist_mean_ax0_shard0_i_m2048_n1024_v7x_i8_f32_1_alg».proof.Proof.KernelIdeal.Mesh
import proofs.«900949_g7700000000000950_dist_mean_ax0_shard0_i_m2048_n1024_v7x_i8_f32_1_alg».proof.Proof.Gen.KernelIdeal.Launch
import proofs.«900949_g7700000000000950_dist_mean_ax0_shard0_i_m2048_n1024_v7x_i8_f32_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (duties named by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The memrefs and the cells -/

/-- The staged block of `x`, the staged result row, the row of column sums, the receive buffer of seven rows. -/
abbrev xM : Memref sig .tc .vmem S2048x1024 .f32 := Memref.whole cc0_stg0_0
abbrev oM : Memref sig .tc .vmem S1x1024 .f32 := Memref.whole cc0_stg1_0
abbrev aM : Memref sig .tc .vmem S1x1024 .f32 := Memref.whole cc0_scratch0
abbrev cM : Memref sig .tc .vmem S7x1x1024 .f32 := Memref.whole cc0_scratch1

theorem slot_inb : ∀ (j : Fin 7) (a : Fin 3), (![j.val, 0, 0] : Fin 3 → Nat) a + S1x1x1024.size a ≤ S7x1x1024.size a := by decide
theorem sem_inb : ∀ (j : Fin 7) (a : Fin 1), (![j.val] : Fin 1 → Nat) a + S1.size a ≤ S7.size a := by decide

/-- Slot `j` of the receive buffer as the `[1, 1, 1024]` rectangle a load reads, -/
abbrev slotR (j : Fin 7) : Rect S7x1x1024 := Rect.unit (s := S7x1x1024) ![j.val, 0, 0] S1x1x1024.size (slot_inb j)
/-- and as a `[1, 1024]` row: the destination of a copy. -/
abbrev slotM (j : Fin 7) : Memref sig .tc .vmem S1x1024 .f32 :=
  (cM.slice (slotR j) (fun _ => rfl)).squeeze S1x1024 squeezes_S1x1x1024_S1x1024

abbrev barS : Sem sig := (SemArray.scalar (sig.barrier 0 rfl) : Sems sig S_).sem
abbrev sendSem (j : Fin 7) : DmaSem sig := ((cc0_scratch2.slice (Rect.unit (s := S7) ![j.val] S1.size (sem_inb j))).squeeze S_ squeezes_S1_S_).sem
abbrev recvSem (j : Fin 7) : DmaSem sig := ((cc0_scratch3.slice (Rect.unit (s := S7) ![j.val] S1.size (sem_inb j))).squeeze S_ squeezes_S1_S_).sem

theorem sendSem_val (j : Fin 7) : (sendSem j).val = 2 + j.val := by revert j; decide
theorem recvSem_val (j : Fin 7) : (recvSem j).val = 9 + j.val := by revert j; decide

abbrev barCell (c : Dev nD) : GSem nD τ sig := ((c : Thread nD τ), .reg barS)
abbrev sendCell (c : Dev nD) (j : Fin 7) : GSem nD τ sig := ((c : Thread nD τ), .dma (sendSem j))
abbrev recvCell (c : Dev nD) (j : Fin 7) : GSem nD τ sig := ((c : Thread nD τ), .dma (recvSem j))

/-- A copy's credit: the same for every slot. -/
abbrev N : ℕ := (aM : Memref sig .tc .vmem S1x1024 .f32).view.dmaCredit
theorem N_pos : 0 < N := View.dmaCredit_pos _ (by decide)
theorem slot_amount (j : Fin 7) (sm : DmaSem sig) : (slotM j).view.amount (.dma sm) = N := rfl

/-- The slot a copy number `d` is lent through: barrier duty `d` carries slot `6 - d`. -/
def rev (d : Fin 7) : Fin 7 := ⟨6 - d.val, by omega⟩
theorem rev_rev (d : Fin 7) : rev (rev d) = d := by revert d; decide
theorem sender_rev (c : Dev nD) (d : Fin 7) : sender c (rev d) = target c d := by revert c d; decide
theorem target_rev (c : Dev nD) (d : Fin 7) : target c (rev d) = sender c d := by revert c d; decide
/-- The device that pays duty `d` of `target c d`'s barrier cell, named from that cell, is `c`. -/
theorem target_target_rev (c : Dev nD) (d : Fin 7) : target (target c d) (rev d) = c := by revert c d; decide

/-! ## Contents -/

/-- Device `c`'s staged block of `x`: its argument array as launched. -/
def xstg (c : Dev nD) : (cc0_stg0_0 : Ref sig .tc).ty.Contents (Elt F) :=
  (win0_0.blk t0_0).view.read (Elt F) ((s₀ m ρ).mem ((c : Thread nD τ).loc main_arg0))

/-- Device `c`'s row of column sums. -/
def accRow (c : Dev nD) : (cc0_scratch0 : Ref sig .tc).ty.Contents (Elt F) := colsums (xstg m ρ c)

/-- Device `c`'s receive buffer once every copy has landed: slot `j` holds `sender c j`'s row. -/
def recvFill (c : Dev nD) : (cc0_scratch1 : Ref sig .tc).ty.Contents (Elt F) :=
  fun i => asSlot (accRow m ρ (sender c (i 0))) (fun a => match a with | 0 => ⟨0, by decide⟩ | 1 => i 1 | 2 => i 2)

/-- Device `c`'s result row. -/
def outRow (c : Dev nD) : (cc0_stg1_0 : Ref sig .tc).ty.Contents (Elt F) := result (fun k => accRow m ρ k) c

/-! ## Points-to assertions -/

def slotPts (c : Dev nD) (j : Fin 7) (f : Buf (Elt F) ((slotM j).view.loc (c : Thread nD τ))) : sProp 𝕄 :=
  (slotM j).view.loc (c : Thread nD τ) ↦[(slotM j).view.set]{fullShare} f

/-- The row buffer at read share `j` of seven (`Transfers.shareTok`), holding the row. -/
def accTok (c : Dev nD) (j : Fin 7) : sProp 𝕄 :=
  (aM : Memref sig .tc .vmem S1x1024 .f32).view.loc (c : Thread nD τ) ↦[(aM : Memref sig .tc .vmem S1x1024 .f32).view.set]{Transfers.shareTok fullShare 7 j} accRow m ρ c

instance slotPts_storable (c : Dev nD) (j : Fin 7) (f) : BI.Storable (upEmb : UEmb _ 𝕄) (slotPts (F := F) c j f) := by unfold slotPts; infer_instance
instance accTok_storable (c : Dev nD) (j : Fin 7) : BI.Storable (upEmb : UEmb _ 𝕄) (accTok (F := F) m ρ c j) := by unfold accTok; infer_instance

/-! ## The schedule -/

/-- What the signal paying duty `d` of `c`'s barrier cell hands `c`: slot `6 - d` of the signalling device — which is
    `sender c d`, named here as `c`'s copy number `6 - d` names it, `target c (6 - d)` (`target_rev`) — and that this
    device has reached round 0 of the slot's receive cell. -/
def barPay (c : Dev nD) (d : Fin 7) : sProp 𝕄 :=
  iprop((∃ f, slotPts (target c (rev d)) (rev d) f) ∗ reached ER (recvCell (target c (rev d)) (rev d)) 0)
def recvPay (c : Dev nD) (j : Fin 7) : sProp 𝕄 := slotPts c j (recvFill m ρ c)
def sendPay (c : Dev nD) (j : Fin 7) : sProp 𝕄 := accTok m ρ c j

abbrev IsBar (g : GSem nD τ sig) : Prop := g.1.2 = .tc ∧ g.2 = .reg barS
abbrev IsSend (g : GSem nD τ sig) (j : Fin 7) : Prop := g.1.2 = .tc ∧ g.2 = .dma (sendSem j)
abbrev IsRecv (g : GSem nD τ sig) (j : Fin 7) : Prop := g.1.2 = .tc ∧ g.2 = .dma (recvSem j)
abbrev IsXfer (g : GSem nD τ sig) : Prop := g.1.2 = .tc ∧ ∃ j : Fin 7, g.2 = .dma (sendSem j) ∨ g.2 = .dma (recvSem j)

/-- Which slot a DMA semaphore serves, as a send semaphore or as a receive semaphore. -/
def sendIx (q : DmaSem sig) : Option (Fin 7) := if h : 2 ≤ q.val ∧ q.val < 9 then some ⟨q.val - 2, by omega⟩ else none
def recvIx (q : DmaSem sig) : Option (Fin 7) := if h : 9 ≤ q.val ∧ q.val < 16 then some ⟨q.val - 9, by omega⟩ else none
theorem sendIx_send (j : Fin 7) : sendIx (sendSem j) = some j := by revert j; decide
theorem recvIx_recv (j : Fin 7) : recvIx (recvSem j) = some j := by revert j; decide
theorem sendIx_recv (j : Fin 7) : sendIx (recvSem j) = none := by revert j; decide
theorem recvIx_send (j : Fin 7) : recvIx (sendSem j) = none := by revert j; decide

/-- One round, round 0. -/
def ringRd : Rounds.Schedule (GSem nD τ sig) (Fin 7) 𝕄 where
  duties g r :=
    if r = 0 ∧ g.1.2 = .tc then
      match g.2 with
      | .reg s => if s = barS then Finset.univ else ∅
      | .dma q => if (sendIx q).isSome ∨ (recvIx q).isSome then {0} else ∅
    else ∅
  unitless _ := False
  amount g _ _ := match g.2 with | .reg _ => 1 | .dma _ => N
  payload g _ d :=
    match g.2 with
    | .reg _ => barPay g.1.1 d
    | .dma q => match sendIx q with
      | some j => sendPay m ρ g.1.1 j
      | none => match recvIx q with
        | some j => recvPay m ρ g.1.1 j
        | none => iprop(emp)
  amount_pos g _ _ _ := by
    cases g.2 with
    | reg s => exact Nat.one_pos
    | dma q => exact N_pos

instance ringRd_payload_storable (g : GSem nD τ sig) (r : ℕ) (d : Fin 7) :
    BI.Storable (upEmb : UEmb _ 𝕄) ((ringRd (F := F) m ρ).payload g r d) := by
  dsimp only [ringRd]
  unfold barPay recvPay sendPay
  (repeat' split) <;> infer_instance

section Sched
variable (c : Dev nD) (j : Fin 7)

theorem duties_bar : (ringRd (F := F) m ρ).duties (barCell c) 0 = Finset.univ := by
  dsimp only [ringRd]; rw [if_pos ⟨rfl, rfl⟩]; exact if_pos rfl
theorem duties_send : (ringRd (F := F) m ρ).duties (sendCell c j) 0 = {0} := by
  dsimp only [ringRd]; rw [if_pos ⟨rfl, rfl⟩]; exact if_pos (Or.inl (by rw [sendIx_send]; rfl))
theorem duties_recv : (ringRd (F := F) m ρ).duties (recvCell c j) 0 = {0} := by
  dsimp only [ringRd]; rw [if_pos ⟨rfl, rfl⟩]; exact if_pos (Or.inr (by rw [recvIx_recv]; rfl))
theorem duties_later (g : GSem nD τ sig) : ∀ r, 1 ≤ r → (ringRd (F := F) m ρ).duties g r = ∅ :=
  fun r hr => by dsimp only [ringRd]; rw [if_neg fun h => by omega]

theorem amount_bar (d : Fin 7) : (ringRd (F := F) m ρ).amount (barCell c) 0 d = 1 := rfl
theorem amount_send (d : Fin 7) : (ringRd (F := F) m ρ).amount (sendCell c j) 0 d = N := rfl
theorem amount_recv (d : Fin 7) : (ringRd (F := F) m ρ).amount (recvCell c j) 0 d = N := rfl

theorem expect_bar : (ringRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (ringRd (F := F) m ρ).expect (sendCell c j) 0 = N := by
  unfold Schedule.expect Schedule.amountOf; rw [duties_send, Finset.sum_singleton, amount_send]
theorem expect_recv : (ringRd (F := F) m ρ).expect (recvCell c j) 0 = N := by
  unfold Schedule.expect Schedule.amountOf; rw [duties_recv, Finset.sum_singleton, amount_recv]

theorem payload_bar (d : Fin 7) : (ringRd (F := F) m ρ).payload (barCell c) 0 d = barPay c d := rfl
theorem payload_send (d : Fin 7) : (ringRd (F := F) m ρ).payload (sendCell c j) 0 d = sendPay m ρ c j := by
  dsimp only [ringRd]; rw [sendIx_send]
theorem payload_recv (d : Fin 7) : (ringRd (F := F) m ρ).payload (recvCell c j) 0 d = recvPay m ρ c j := by
  dsimp only [ringRd]; rw [sendIx_recv, recvIx_recv]

/-- The rest of the barrier cell's round, no duty taken: the seven lent slots. -/
theorem rest_bar : bigSep ((ringRd (F := F) m ρ).duties (barCell c) 0 \ ∅) (fun d => (ringRd (F := F) m ρ).payload (barCell c) 0 d)
    = bigSep Finset.univ (fun d : Fin 7 => barPay (F := F) c d) := by
  rw [Finset.sdiff_empty, duties_bar]; rfl
theorem rest_send : bigSep ((ringRd (F := F) m ρ).duties (sendCell c j) 0 \ ∅) (fun d => (ringRd (F := F) m ρ).payload (sendCell c j) 0 d) = sendPay m ρ c j := by
  rw [Finset.sdiff_empty, duties_send, bigSep_singleton, payload_send]
theorem rest_recv : bigSep ((ringRd (F := F) m ρ).duties (recvCell c j) 0 \ ∅) (fun d => (ringRd (F := F) m ρ).payload (recvCell c j) 0 d) = recvPay m ρ c j := by
  rw [Finset.sdiff_empty, duties_recv, bigSep_singleton, payload_recv]

end Sched

end Cert.KernelIdeal.Proto

end
-- ==== Proof.KernelIdeal.Proto.lean ====
/-
  What one device holds, owes and is owed: the proof data of the one-point pipeline.

  At launch device `c` OWES each of its seven targets one unit on the target's barrier cell and one copy's
  credit on the target's receive cell number `d`; it is OWED seven barrier units and seven copies' credits,
  which it holds as credit tokens. Levels: barrier cells at 1, receive cells at 2, everything else at 0 — a
  device waits on its barrier owing only receive credits, and on its receive and send cells owing nothing.
  Before the point the device holds its ghost state (the invariants of the cells it touches, its positions,
  the reached-marks and the duty tokens it pays with) and its two scratch buffers at arbitrary contents;
  after it, the row buffer holding its column sums, the receive buffer holding the seven senders' rows, and
  its fourteen own semaphores closed at zero.
-/
import proofs.«900949_g7700000000000950_dist_mean_ax0_shard0_i_m2048_n1024_v7x_i8_f32_1_alg».proof.Proof.KernelIdeal.Sched

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The credit of copy `d`, owed to the target's receive cell `d`; the unit of signal `d`, owed to its barrier cell. -/
def recvDebt (c : Dev nD) (d : Fin 7) : CellTallies nD τ sig Unit := tallyAt (recvCell (target c d) d) () N
def barDebt (c : Dev nD) (d : Fin 7) : CellTallies nD τ sig Unit := tallyAt (barCell (target c d)) () 1

/-- Number `6 - n`: the first of the last `n + 1` of seven. -/
def lastIx (n : ℕ) : Fin 7 := ⟨6 - n, by omega⟩

/-- The receive credits of the LAST `n` copies, summed so that the earliest of them is the last summand. -/
def copyDebts (c : Dev nD) : ℕ → CellTallies nD τ sig Unit
  | 0 => 0
  | n + 1 => copyDebts c n + recvDebt c (lastIx n)

/-- All seven copies' credits and the barrier units of the LAST `n` signals, the earliest the last summand. -/
def sigDebts (c : Dev nD) : ℕ → CellTallies nD τ sig Unit
  | 0 => copyDebts c 7
  | n + 1 => sigDebts c n + barDebt c (lastIx n)

/-- What device `c` owes at launch. -/
def O₀ (c : Dev nD) : CellTallies nD τ sig Unit := sigDebts c 7

def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg _ => 1
  | .dma q => if (recvIx q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells of one device, indexed -/

/-- A device's fifteen cells: its barrier cell, send cell `j` (`(false, j)`), receive cell `j` (`(true, j)`). -/
abbrev CellIx : Type := Option (Bool × Fin 7)
abbrev csem : CellIx → SemLoc sig
  | none => .reg barS
  | some (false, j) => .dma (sendSem j)
  | some (true, j) => .dma (recvSem j)
abbrev kcell (ck : Dev nD × CellIx) : GSem nD τ sig := ((ck.1 : Thread nD τ), csem ck.2)

/-! ## The buffers -/

def aPts (c : Dev nD) (f : Buf (Elt F) ((c : Thread nD τ).loc cc0_scratch0)) : sProp 𝕄 := ((c : Thread nD τ).loc cc0_scratch0) ↦{fullShare} f
def cPts (c : Dev nD) (f : Buf (Elt F) ((c : Thread nD τ).loc cc0_scratch1)) : sProp 𝕄 := ((c : Thread nD τ).loc cc0_scratch1) ↦{fullShare} f

/-! ## The ghost state -/

/-- The invariants device `c`'s body opens, under the names `K` the launch allocated them at: its own fifteen, and per
    target its barrier cell (the signal) and its receive cell `d` (the copy). -/
def invs (K : Dev nD × CellIx → ℕ) (c : Dev nD) : sProp 𝕄 :=
  iprop((bigSep Finset.univ fun k : CellIx => cellInv ER (ringRd m ρ) (K (c, k)) (kcell (c, k)))
    ∗ bigSep Finset.univ fun d : Fin 7 =>
        iprop(cellInv ER (ringRd m ρ) (K (target c d, none)) (barCell (target c d))
          ∗ cellInv ER (ringRd m ρ) (K (target c d, some (true, d))) (recvCell (target c d) d)))

instance invs_persistent (K : Dev nD × CellIx → ℕ) (c : Dev nD) : BI.Persistent (invs m ρ K c) := by unfold invs; infer_instance

/-- The reached-marks device `c` presents: of the cells it pays, and of its own send and receive cells. -/
def marks (c : Dev nD) : sProp 𝕄 :=
  bigSep Finset.univ fun d : Fin 7 =>
    iprop(reached ER (barCell (target c d)) 0 ∗ reached ER (recvCell (target c d) d) 0
      ∗ reached ER (sendCell c d) 0 ∗ reached ER (recvCell c d) 0)

instance marks_persistent (c : Dev nD) : BI.Persistent (marks (F := F) c) := by unfold marks; infer_instance

/-- The tokens of the duties device `c` pays: per `d`, its target's barrier duty `d`, its target's receive duty, its own send duty. -/
def payToks (c : Dev nD) : sProp 𝕄 :=
  bigSep Finset.univ fun d : Fin 7 =>
    iprop(dutyTok ER (barCell (target c d)) 0 d ∗ dutyTok ER (recvCell (target c d) d) 0 0 ∗ dutyTok ER (sendCell c d) 0 0)

/-- Device `c`'s positions at round 0 of its fifteen cells. -/
def positions (c : Dev nD) : sProp 𝕄 := bigSep Finset.univ fun k : CellIx => atPos ER (kcell (c, k)) 0 ∅ 0

def ghost (K : Dev nD × CellIx → ℕ) (c : Dev nD) : sProp 𝕄 :=
  iprop(invs m ρ K c ∗ positions c ∗ marks c ∗ payToks c)

/-- The credit tokens device `c` holds at launch: seven barrier units, and a copy's credit on each receive cell. -/
def creds (c : Dev nD) : sProp 𝕄 :=
  iprop(cred (tallyAt (barCell c) () 7) ∗ bigSep Finset.univ fun j : Fin 7 => cred (tallyAt (recvCell c j) () N))

/-- What device `c`'s body starts from, apart from the buffers. -/
def start (c : Dev nD) : sProp 𝕄 := iprop((∃ K, ghost m ρ K c) ∗ creds c ∗ levAts L lv)

def Φ₀ (c : Dev nD) : sProp 𝕄 := iprop(start m ρ c ∗ (∃ f, aPts c f) ∗ (∃ f, cPts c f))

/-- The fourteen own semaphores at zero, closed. -/
def ownZero (c : Dev nD) : sProp 𝕄 :=
  bigSep Finset.univ fun j : Fin 7 => iprop(semVal (sendCell c j) 0 ∗ semVal (recvCell c j) 0)

def Φ₁ (c : Dev nD) : sProp 𝕄 := iprop(aPts c (accRow m ρ c) ∗ cPts c (recvFill m ρ c) ∗ ownZero c)

/-- What the launch's global step leaves device `c`: the ghost state at some names. -/
def G' (c : Dev nD) : sProp 𝕄 := iprop(∃ K, ghost m ρ K c)

/-- The kernel's OWN (scoped) semaphores as the launch indexes them: the seven send semaphores, then the seven
    receive semaphores. -/
abbrev osem : Fin 14 → SemLoc sig := fun i =>
  if h : i.val < 7 then .dma (sendSem ⟨i.val, h⟩) else .dma (recvSem ⟨i.val - 7, by omega⟩)

theorem ownSemFacts : Pipeline.OwnSemFacts cfg0.spec osem := by decide

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outRow m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre- and postcondition, in the form the pipeline hands and takes them -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CellIx → ℕ) (c : Dev nD) : sProp 𝕄 :=
  iprop((ghost m ρ K c ∗ creds c ∗ levAts L lv ∗ (∃ f, aPts c f) ∗ (∃ f, cPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outRow m ρ c))

/-- The body as the pipeline calls it at the one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

/-- What the body lemma states: from `bodyPre` the body runs to `bodyPost`. -/
def BodySound : Prop :=
  ∀ (K : Dev nD × CellIx → ℕ) (c : Dev nD) (Kt : PUnit → sProp 𝕄),
    iprop(bodyPre m ρ K c ∗ (bodyPost m ρ c -∗ Kt ⟨⟩))
      ⊢ wp frame (wpE (defs₀ (F := F)) 𝒱₀ c none) Set.univ (theBody (F := F)) Kt

end Cert.KernelIdeal.Proto

end
-- ==== Proof.KernelIdeal.LaunchGhost.lean ====
/-
  The launch's ghost state, dealt to the eight devices.

  The launch element of the protocol's algebra holds, for every device, its fifteen cells (the barrier cell, seven
  send cells, seven receive cells) at round 0 and one token per duty of round 0: seven on the barrier cell, one on
  each send cell, one on each receive cell. Funding it gives every device the round states, positions and
  reached-marks of its OWN cells and the tokens of its OWN cells' duties. But a duty is paid by another device:
  barrier duty `d` of `target c d` and the duty of receive cell `d` of `target c d` are paid by `c`. So the tokens
  travel: on pairs (device, number) the map `(c, d) ↦ (target c d, d)` is a permutation, undone by
  `(c, d) ↦ (sender c d, d)`, and re-indexing the tokens along it hands each device the tokens it pays with. The
  invariants are allocated once every device's fifteen semaphores are known to be at zero; invariants and
  reached-marks are persistent, so every device takes the ones it needs from the whole table.
-/
import proofs.«900949_g7700000000000950_dist_mean_ax0_shard0_i_m2048_n1024_v7x_i8_f32_1_alg».proof.Proof.KernelIdeal.Proto

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens, as finite sets -/

/-- A device's fifteen cells are fifteen different semaphores. -/
theorem csem_injective : Function.Injective (csem : CellIx → SemLoc sig) := by decide

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's fifteen cells. -/
def ringCells : Finset (GSem nD τ sig) := Finset.univ.map ⟨kcell, kcell_injective⟩

/-- The semaphore and the duty of token number `i` of slot `d`: the barrier's duty `d`, the one duty of send cell `d`,
    the one duty of receive cell `d`. -/
abbrev tsem (x : Fin 7 × Fin 3) : SemLoc sig × Fin 7 := match x.2 with
  | 0 => (.reg barS, x.1) | 1 => (.dma (sendSem x.1), 0) | 2 => (.dma (recvSem x.1), 0)

theorem tsem_injective : Function.Injective tsem := by decide

/-- A device's own cells' duty tokens as minted: (device, slot, which of the three). -/
abbrev tokOf (x : (Dev nD × Fin 7) × Fin 3) : GSem nD τ sig × ℕ × Fin 7 :=
  (((x.1.1 : Thread nD τ), (tsem (x.1.2, x.2)).1), 0, (tsem (x.1.2, x.2)).2)

theorem tokOf_injective : Function.Injective (tokOf : (Dev nD × Fin 7) × Fin 3 → GSem nD τ sig × ℕ × Fin 7) := by
  rintro ⟨⟨c, d⟩, i⟩ ⟨⟨c', d'⟩, i'⟩ h
  have h1 : c = c' := by have := congrArg (fun x : GSem nD τ sig × ℕ × Fin 7 => x.1.1.1) h; exact this
  have h2 : tsem (d, i) = tsem (d', i') :=
    Prod.ext (by have := congrArg (fun x : GSem nD τ sig × ℕ × Fin 7 => x.1.2) h; exact this)
      (by have := congrArg (fun x : GSem nD τ sig × ℕ × Fin 7 => x.2.2) h; exact this)
  have h3 := tsem_injective h2
  rw [h1, (Prod.mk.inj h3).1, (Prod.mk.inj h3).2]

/-- Every device's twenty-one tokens. -/
def ringToks : Finset (GSem nD τ sig × ℕ × Fin 7) := Finset.univ.map ⟨tokOf, tokOf_injective⟩

/-- The launch element: the pipeline's staging cells beside the protocol's cells and tokens. -/
def u₀ : UU :=
  (initOf (Pipeline.cells cfgs cellOf_inj) (Pipeline.launchToks cfgs cellOf_inj), initOf ringCells ringToks)

/-! ## What the launch element deals each device -/

/-- The three kinds of duty token, named by (the cell's owner, the slot). -/
def tokB (p : Dev nD × Fin 7) : sProp 𝕄 := dutyTok ER (barCell p.1) 0 p.2
def tokS (p : Dev nD × Fin 7) : sProp 𝕄 := dutyTok ER (sendCell p.1 p.2) 0 0
def tokR (p : Dev nD × Fin 7) : sProp 𝕄 := dutyTok ER (recvCell p.1 p.2) 0 0

/-- The duty tokens of device `c`'s own cells. -/
def toks (c : Dev nD) : sProp 𝕄 :=
  bigSep Finset.univ fun d : Fin 7 => iprop(tokB (F := F) (c, d) ∗ tokS (F := F) (c, d) ∗ tokR (F := F) (c, d))

/-- What the launch element deals device `c`: the round states, the positions and reached-marks of its own fifteen
    cells, and the tokens of its own cells' duties. -/
def G (c : Dev nD) : sProp 𝕄 :=
  iprop((bigSep Finset.univ fun k : CellIx => roundState ER (ringRd m ρ) (kcell (c, k)) 0)
    ∗ (bigSep Finset.univ fun k : CellIx => iprop(atPos ER (kcell (c, k)) 0 ∅ 0 ∗ reached ER (kcell (c, k)) 0)) ∗ toks (F := F) c)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- Funding the protocol's half of the launch element. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks; rw [bigSep_map, bigSep_univ_prod, bigSep_univ_prod]
    exact bigSep_congr fun c _ => bigSep_congr fun d _ => by rw [bigSep_fin3]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch theorem's funding step: the pipeline's half is handed on as it is, the protocol's half funded. -/
theorem fund_all : (ownU (u₀) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The fifteen semaphores at zero -/

/-- Own semaphore number `i` as a cell index: the seven send cells, then the seven receive cells. -/
def ixOf (i : Fin 14) : CellIx := if h : i.val < 7 then some (false, ⟨i.val, h⟩) else some (true, ⟨i.val - 7, by omega⟩)

theorem ixOf_injective : Function.Injective ixOf := by decide
theorem osem_ixOf : ∀ i : Fin 14, osem i = csem (ixOf i) := by decide
/-- The cell indices are the barrier's and the fourteen own ones. -/
theorem univ_cellIx : (Finset.univ : Finset CellIx) = insert none (Finset.univ.map ⟨ixOf, ixOf_injective⟩) := by decide

theorem bigSep_cellIx (Φ : CellIx → sProp 𝕄) : bigSep Finset.univ Φ = iprop(Φ none ∗ bigSep Finset.univ fun i : Fin 14 => Φ (ixOf i)) := by
  rw [univ_cellIx, bigSep_insert (by decide), bigSep_map]; rfl

/-- The kernel's own semaphores are its seven send and seven receive cells; -/
theorem ownSems0_eq (c : Dev nD) : (Pipeline.ownSems0 (Ix := Unit) (Name := ℕ) (U := UU) (Lvl := ℕ) (Val := Elt F) (τ := τ) osem c : sProp 𝕄)
    = bigSep Finset.univ fun i : Fin 14 => semVal (kcell (c, ixOf i)) 0 := by
  unfold Pipeline.ownSems0
  exact bigSep_congr fun i _ => by rw [osem_ixOf i]
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨HS, HB⟩
  isplitl [HB]; · iexact HB
  iexact HS

/-! ## The invariants allocated, device by device -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (ringRd m ρ) κ (kcell (c, k))))
          ∗ (bigSep Finset.univ fun k : CellIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (ringRd m ρ) (kcell (c, k)) 0)
      ⊢ (|={Set.univ}=> bigSep Finset.univ fun k : CellIx => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The persistent table, and what each device takes from it -/

/-- Every cell's invariant under the name it was allocated at, and every cell's reached-mark. -/
def records (K : Dev nD × CellIx → ℕ) : sProp 𝕄 :=
  iprop((bigSep Finset.univ fun ck : Dev nD × CellIx => cellInv ER (ringRd m ρ) (K ck) (kcell ck))
    ∗ bigSep Finset.univ fun ck : Dev nD × CellIx => reached ER (kcell ck) 0)

instance records_persistent (K : Dev nD × CellIx → ℕ) : BI.Persistent (records m ρ K) := by unfold records; infer_instance

theorem inv_at (K : Dev nD × CellIx → ℕ) (ck : Dev nD × CellIx) :
    (bigSep Finset.univ fun ck : Dev nD × CellIx => (cellInv ER (ringRd m ρ) (K ck) (kcell ck) : sProp 𝕄)) ⊢ cellInv ER (ringRd m ρ) (K ck) (kcell ck) :=
  bigSep_elim (Finset.mem_univ ck)
theorem reached_at (ck : Dev nD × CellIx) :
    (bigSep Finset.univ fun ck : Dev nD × CellIx => (reached ER (kcell ck) 0 : sProp 𝕄)) ⊢ reached ER (kcell ck) 0 :=
  bigSep_elim (Finset.mem_univ ck)

theorem records_inv (K : Dev nD × CellIx → ℕ) (ck : Dev nD × CellIx) : records m ρ K ⊢ cellInv ER (ringRd m ρ) (K ck) (kcell ck) := by
  unfold records; iintro ⟨#HI, -⟩; iapply (inv_at m ρ K ck); iexact HI
theorem records_reached (K : Dev nD × CellIx → ℕ) (ck : Dev nD × CellIx) : records m ρ K ⊢ (reached ER (kcell ck) 0 : sProp 𝕄) := by
  unfold records; iintro ⟨-, #HR⟩; iapply (reached_at (F := F) ck); iexact HR

/-- Device `c`'s invariants: its own fifteen, and per target the target's barrier cell and its receive cell `d`. -/
theorem records_invs (K : Dev nD × CellIx → ℕ) (c : Dev nD) : records m ρ K ⊢ invs m ρ K c := by
  have hown : records m ρ K ⊢ bigSep Finset.univ fun k : CellIx => cellInv ER (ringRd m ρ) (K (c, k)) (kcell (c, k)) :=
    bigSep_intro_persistent fun k _ => records_inv m ρ K (c, k)
  have hpeer : records m ρ K ⊢ bigSep Finset.univ fun d : Fin 7 =>
      iprop(cellInv ER (ringRd m ρ) (K (target c d, none)) (barCell (target c d))
        ∗ cellInv ER (ringRd m ρ) (K (target c d, some (true, d))) (recvCell (target c d) d)) :=
    bigSep_intro_persistent fun d _ => by
      iintro #H
      isplitr
      · iapply (records_inv m ρ K (target c d, none)); iexact H
      · iapply (records_inv m ρ K (target c d, some (true, d))); iexact H
  unfold invs
  iintro #H
  isplitr
  · iapply hown; iexact H
  · iapply hpeer; iexact H

/-- Device `c`'s reached-marks: of the cells it pays, and of its own send and receive cells. -/
theorem records_marks (K : Dev nD × CellIx → ℕ) (c : Dev nD) : records m ρ K ⊢ marks (F := F) c := by
  unfold marks
  exact bigSep_intro_persistent fun d _ => by
    iintro #H
    isplitr; · iapply (records_reached m ρ K (target c d, none)); iexact H
    isplitr; · iapply (records_reached m ρ K (target c d, some (true, d))); iexact H
    isplitr; · iapply (records_reached m ρ K (c, some (false, d))); iexact H
    iapply (records_reached m ρ K (c, some (true, d))); iexact H

/-- What stays with device `c` alone: its positions, and the tokens of the duties IT pays. -/
def linear (c : Dev nD) : sProp 𝕄 := iprop(positions (F := F) c ∗ payToks (F := F) c)

theorem ghost_intro (K : Dev nD × CellIx → ℕ) (c : Dev nD) : iprop(records m ρ K ∗ linear (F := F) c) ⊢ G' m ρ c := by
  unfold linear G' ghost
  iintro ⟨#HR, Hpos, Htok⟩
  iexists K
  isplitr; · iapply (records_invs m ρ K c); iexact HR
  isplitl [Hpos]; · iexact Hpos
  isplitr; · iapply (records_marks m ρ K c); iexact HR
  iexact Htok

/-! ## The tokens dealt round the ring -/

/-- Signal number `d` and copy number `d` of device `c` go to `target c d`: on pairs (device, number) a permutation,
    undone by `sender`. -/
def deal : Dev nD × Fin 7 ≃ Dev nD × Fin 7 where
  toFun p := (target p.1 p.2, p.2)
  invFun p := (sender p.1 p.2, p.2)
  left_inv p := Prod.ext (sender_target p.1 p.2) rfl
  right_inv p := Prod.ext (target_sender p.1 p.2) rfl

/-- Every barrier token and every receive token moves from the cell's owner to the device that pays the duty; the
    send tokens stay. -/
theorem toks_around : (bigSep Finset.univ fun c : Dev nD => (toks (F := F) c : sProp 𝕄)) ⊢ bigSep Finset.univ fun c : Dev nD => payToks (F := F) c := by
  have hpay : (fun c : Dev nD => payToks (F := F) c)
      = fun c : Dev nD => bigSep Finset.univ fun d : Fin 7 => iprop(tokB (F := F) (deal (c, d)) ∗ tokR (F := F) (deal (c, d)) ∗ tokS (F := F) (c, d)) := rfl
  rw [hpay]
  unfold toks
  rw [← bigSep_univ_prod (fun p : Dev nD × Fin 7 => iprop(tokB (F := F) p ∗ tokS (F := F) p ∗ tokR (F := F) p)),
    ← bigSep_univ_prod (fun p : Dev nD × Fin 7 => iprop(tokB (F := F) (deal p) ∗ tokR (F := F) (deal p) ∗ tokS (F := F) p)),
    bigSep_sep', bigSep_sep', bigSep_sep', bigSep_sep',
    bigSep_univ_equiv deal (fun p : Dev nD × Fin 7 => (tokB (F := F) p : sProp 𝕄)),
    bigSep_univ_equiv deal (fun p : Dev nD × Fin 7 => (tokR (F := F) p : sProp 𝕄))]
  iintro ⟨H1, H2, H3⟩
  isplitl [H1]; · iexact H1
  isplitl [H3]; · iexact H3
  iexact H2

/-! ## The global step -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER (ringRd m ρ) κ (kcell (c, k))))
          ∗ (bigSep Finset.univ fun k : CellIx => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × CellIx => iprop(∃ κ : ℕ, cellInv ER (ringRd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions (F := F) c) (fun c : Dev nD => payToks (F := F) c)).symm)
    isplitl [Hat]; · iexact Hat
    iexact Htk

/-- The launch theorem's global step: with every device's own and unscoped semaphores at zero, every cell's invariant
    is allocated, and each device is handed its ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdeal.Proto.fund_all' depends on axioms: [propext, Classical.choice, Quot.sound] -/
#guard_msgs in #print axioms fund_all

/-- info: 'Cert.KernelIdeal.Proto.glob' depends on axioms: [propext, Classical.choice, Quot.sound] -/
#guard_msgs in #print axioms glob

end Cert.KernelIdeal.Proto

end
-- ==== Proof.KernelIdeal.Levels.lean ====
/-
  Deadlock freedom from the levels.

  Barrier cells sit at level 1, receive cells at level 2, every other cell (staging, send) at level 0. What a
  device owes at launch lies on its targets' barrier cells and receive cells only; once its seven signals are
  out, on receive cells only. So a wait on its own barrier cell (level 1) lies strictly below the receive
  credits it still owes (level 2), and a wait on a staging or send cell (level 0) lies below everything it can
  owe.
-/
import proofs.«900949_g7700000000000950_dist_mean_ax0_shard0_i_m2048_n1024_v7x_i8_f32_1_alg».proof.Proof.KernelIdeal.Proto

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels of the three kinds of cell -/

theorem lv_bar (c : Dev nD) (u : Unit) : lv (barCell c) u = 1 := rfl

theorem lv_recv (c : Dev nD) (j : Fin 7) (u : Unit) : lv (recvCell c j) u = 2 := by
  show (if (recvIx (recvSem j)).isSome then 2 else 0) = 2
  rw [recvIx_recv]; rfl

theorem lv_low (c : Dev nD) (q : DmaSem sig) (hq : (recvIx q).isSome = false) (u : Unit) :
    lv ((c : Thread nD τ), .dma q) u = 0 := by
  show (if (recvIx q).isSome then 2 else 0) = 0
  rw [hq]; rfl

/-! ## Where the debts lie -/

/-- No tally: nothing positive. -/
theorem zero_not_pos {g : GSem nD τ sig} {u : Unit} (h : 0 < (0 : CellTallies nD τ sig Unit) g u) : False := by
  rw [Pi.zero_apply, Finsupp.zero_apply] at h; exact Nat.lt_irrefl 0 h

/-- A single tally is positive at its own cell only. -/
theorem tallyAt_pos {g₀ g : GSem nD τ sig} {k : ℕ} {u : Unit} (h : 0 < tallyAt g₀ () k g u) : g = g₀ := by
  rw [tallyAt_apply] at h
  by_cases hg : g = g₀ ∧ u = ()
  · exact hg.1
  · rw [if_neg hg] at h; exact absurd h (Nat.lt_irrefl 0)

/-- The copies' credits lie on the targets' receive cells. -/
theorem copyDebts_pos {c : Dev nD} {g : GSem nD τ sig} {u : Unit} :
    ∀ {n : ℕ}, 0 < copyDebts c n g u → ∃ d : Fin 7, g = recvCell (target c d) d
  | 0, h => (zero_not_pos h).elim
  | n + 1, h => by
    rcases Pipeline.add_pos_cases (D₁ := copyDebts c n) (D₂ := recvDebt c (lastIx n)) h with h | h
    · exact copyDebts_pos h
    · exact ⟨lastIx n, tallyAt_pos h⟩

/-- The signals' units lie on the targets' barrier cells; the rest is the copies' credits. -/
theorem sigDebts_pos {c : Dev nD} {g : GSem nD τ sig} {u : Unit} :
    ∀ {n : ℕ}, 0 < sigDebts c n g u → (∃ d : Fin 7, g = recvCell (target c d) d) ∨ ∃ d : Fin 7, g = barCell (target c d)
  | 0, h => Or.inl (copyDebts_pos h)
  | n + 1, h => by
    rcases Pipeline.add_pos_cases (D₁ := sigDebts c n) (D₂ := barDebt c (lastIx n)) h with h | h
    · exact sigDebts_pos h
    · exact Or.inr ⟨lastIx n, tallyAt_pos h⟩

theorem O₀_pos {c : Dev nD} {g : GSem nD τ sig} {u : Unit} (h : 0 < O₀ c g u) :
    (∃ d : Fin 7, g = recvCell (target c d) d) ∨ ∃ d : Fin 7, g = barCell (target c d) := sigDebts_pos h

/-! ## The waits -/

omit [FloatOps F] in
/-- At its barrier wait a device owes receive credits only: receive cells, above its barrier cell. -/
theorem mayWait_bar (c : Dev nD) :
    (levAts L lv : sProp 𝕄) ⊢ MayWait (c : Thread nD τ) (.reg barS) () (copyDebts c 7) :=
  Pipeline.mayWait_of_levAts (by rw [L_tc]; exact Finset.mem_singleton_self _) fun g u hg => by
    obtain ⟨d, rfl⟩ := copyDebts_pos hg
    refine ⟨by rw [L_tc]; exact Finset.mem_singleton_self _, ?_⟩
    rw [lv_recv]; exact (by decide : (1 : ℕ) < 2)

omit [FloatOps F] in
/-- A wait on a staging or send cell sits below everything a device can owe. -/
theorem mayWait_stage (c : Dev nD) (q : DmaSem sig) (hq : (recvIx q).isSome = false) (O : CellTallies nD τ sig Unit)
    (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_low c q hq]
    rcases O₀_pos hg with ⟨d, rfl⟩ | ⟨d, rfl⟩
    · refine ⟨by rw [L_tc]; exact Finset.mem_singleton_self _, ?_⟩
      rw [lv_recv]; decide
    · refine ⟨by rw [L_tc]; exact Finset.mem_singleton_self _, ?_⟩
      rw [lv_bar]; decide
  · rw [MayWait_zero]; iintro -; iempintro

end Cert.KernelIdeal.Proto

end
-- ==== Proof.KernelIdeal.LaunchRun.lean ====
/-
  The launch: from one device's body to the run of the whole mesh.

  At launch every device owes its seven targets a barrier unit and a copy's credit each. Summed over the
  devices, what is owed to device `c` is seven units on its barrier cell (one from each other device) and one
  copy's credit on each of its seven receive cells (receive cell `j` from the device `j + 1` places before it):
  these are the credit tokens `c` starts with. With the ghost state the launch's global step deals, the two
  scratch buffers at arbitrary contents and the level facts, this is what the body starts from; what it leaves
  — the fourteen own semaphores closed at zero and the scratch buffers — goes back to the launch. The run then
  ends with every device's argument array as launched and its result array holding its row of the mean.
-/
import proofs.«900949_g7700000000000950_dist_mean_ax0_shard0_i_m2048_n1024_v7x_i8_f32_1_alg».proof.Proof.KernelIdeal.Levels

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- The credits of the last `n` copies landing on device `c`, the earliest the last factor. -/
def copyCreds (c : Dev nD) : ℕ → sProp 𝕄
  | 0 => iprop(emp)
  | n + 1 => iprop(copyCreds c n ∗ cred (tallyAt (recvCell c (lastIx n)) () N))

/-- All seven copies' credits and the units of the last `n` signals addressed to device `c`. -/
def sigCreds (c : Dev nD) : ℕ → sProp 𝕄
  | 0 => copyCreds c 7
  | n + 1 => iprop(sigCreds c n ∗ cred (tallyAt (barCell c) () 1))

omit [FloatOps F] in
/-- Copy number `j` of every device lands on its target's receive cell `j`; the targets are a permutation of the
    devices, so each device is dealt one such credit, from its sender. -/
theorem launch_copy (c : Dev nD) : ∀ n, (Pipeline.launchCred (fun d => copyDebts d n) c : sProp 𝕄) ⊢ copyCreds c n
  | 0 => by
    rw [show (fun d : Dev nD => copyDebts d 0) = fun _ => (0 : CellTallies nD τ sig Unit) from rfl, Pipeline.launchCred_zero]
    exact BI.Entails.refl _
  | n + 1 => by
    rw [show (fun d : Dev nD => copyDebts d (n + 1)) = fun d => copyDebts d n + recvDebt d (lastIx n) from rfl, Pipeline.launchCred_add]
    exact BI.sep_mono (launch_copy c n)
      (Pipeline.launchCred_tallyAt (.dma (recvSem (lastIx n))) (fun d => target d (lastIx n)) (fun c => sender c (lastIx n))
        (fun c => target_sender c _) (fun d => sender_target d _) () N c)

omit [FloatOps F] in
/-- Likewise signal number `j` of every device: one unit on each device's barrier cell. -/
theorem launch_sig (c : Dev nD) : ∀ n, (Pipeline.launchCred (fun d => sigDebts d n) c : sProp 𝕄) ⊢ sigCreds c n
  | 0 => launch_copy c 7
  | n + 1 => by
    rw [show (fun d : Dev nD => sigDebts d (n + 1)) = fun d => sigDebts d n + barDebt d (lastIx n) from rfl, Pipeline.launchCred_add]
    exact BI.sep_mono (launch_sig c n)
      (Pipeline.launchCred_tallyAt (.reg barS) (fun d => target d (lastIx n)) (fun c => sender c (lastIx n))
        (fun c => target_sender c _) (fun d => sender_target d _) () 1 c)

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Seven units on one cell are one credit of seven. -/
theorem cred_seven (g : GSem nD τ sig) :
    iprop(cred (tallyAt g () 1) ∗ cred (tallyAt g () 1) ∗ cred (tallyAt g () 1) ∗ cred (tallyAt g () 1) ∗ cred (tallyAt g () 1)
        ∗ cred (tallyAt g () 1) ∗ cred (tallyAt g () 1))
      ⊢ (cred (tallyAt g () 7) : sProp 𝕄) := by
  rw [show (tallyAt g () 7 : CellTallies nD τ sig Unit) = tallyAt g () 1 + (tallyAt g () 1 + (tallyAt g () 1 + (tallyAt g () 1
      + (tallyAt g () 1 + (tallyAt g () 1 + tallyAt g () 1))))) from by simp only [tallyAt_add]]
  iintro ⟨H0, H1, H2, H3, H4, H5, H6⟩
  iapply (cred_add _ _).2; isplitl [H0]; · iexact H0
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iexact H6

omit [FloatOps F] in
/-- What the other devices owe device `c` at launch, as the credit tokens it starts with. -/
theorem launch_creds (c : Dev nD) : (Pipeline.launchCred O₀ c : sProp 𝕄) ⊢ creds c := by
  refine (launch_sig c 7).trans ?_
  unfold creds
  rw [bigSep_seven]
  simp only [sigCreds, copyCreds]
  iintro ⟨⟨⟨⟨⟨⟨⟨⟨⟨⟨⟨⟨⟨⟨-, R6⟩, R5⟩, R4⟩, R3⟩, R2⟩, R1⟩, R0⟩, B0⟩, B1⟩, B2⟩, B3⟩, B4⟩, B5⟩, B6⟩
  isplitl [B0 B1 B2 B3 B4 B5 B6]
  · iapply (cred_seven (F := F) (barCell c))
    isplitl [B0]; · iexact B0
    isplitl [B1]; · iexact B1
    isplitl [B2]; · iexact B2
    isplitl [B3]; · iexact B3
    isplitl [B4]; · iexact B4
    isplitl [B5]; · iexact B5
    iexact B6
  isplitl [R0]; · iexact R0
  isplitl [R1]; · iexact R1
  isplitl [R2]; · iexact R2
  isplitl [R3]; · iexact R3
  isplitl [R4]; · iexact R4
  isplitl [R5]; · iexact R5
  iexact R6

/-! ## The launch theorem's side conditions -/

/-- What the launch hands device `c` beside its buffers is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

/-- With the two scratch buffers at whatever they hold, the invariant before the one point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ aPts cPts
  iintro ⟨Hs, -, ⟨%f, Ha⟩, ⟨%g, Hc⟩⟩
  isplitl [Hs]; · iexact Hs
  isplitl [Ha]
  · iexists f; iexact Ha
  · iexists g; iexact Hc

omit [FloatOps F] in
/-- The kernel's own semaphores are the seven send and the seven receive semaphores. -/
theorem ownSems0_chain (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0
        ∗ semVal (sendCell c 5) 0 ∗ semVal (sendCell c 6) 0
        ∗ semVal (recvCell c 0) 0 ∗ semVal (recvCell c 1) 0 ∗ semVal (recvCell c 2) 0 ∗ semVal (recvCell c 3) 0 ∗ semVal (recvCell c 4) 0
        ∗ semVal (recvCell c 5) 0 ∗ semVal (recvCell c 6) 0) := by
  rw [Pipeline.ownSems0_eq_of_list c osem [0, 1, 2, 3, 4, 5, 6, 7, 8, 9, 10, 11, 12, 13] (by decide) (by decide)]; rfl

/-- After the one point the own semaphores go back closed and the scratch buffers at what they then hold. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_chain]
  unfold Φ₁ ownZero aPts cPts
  rw [bigSep_seven]
  iintro ⟨Ha, Hc, ⟨S0, R0⟩, ⟨S1, R1⟩, ⟨S2, R2⟩, ⟨S3, R3⟩, ⟨S4, R4⟩, ⟨S5, R5⟩, ⟨S6, R6⟩⟩
  isplitr; · iempintro
  isplitl [S0 S1 S2 S3 S4 S5 S6 R0 R1 R2 R3 R4 R5 R6]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [R0]; · iexact R0
    isplitl [R1]; · iexact R1
    isplitl [R2]; · iexact R2
    isplitl [R3]; · iexact R3
    isplitl [R4]; · iexact R4
    isplitl [R5]; · iexact R5
    iexact R6
  isplitl [Ha]
  · iexists (accRow m ρ c); iexact Ha
  · iexists (recvFill m ρ c); iexact Hc

/-- The pipeline's own waits, on the two staging cells, sit below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The body obligation -/

omit [FloatOps F] in
theorem owns_whole_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one point, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's body obligation on device `c`, from the body lemma. -/
theorem body_obligation (hb : BodySound m ρ) (c : Dev nD) : BodyObligation (dats (F := F) m ρ 0 c) (defs₀ (F := F)) 𝒱₀ () Set.univ := fun t => by
  rw [fin_N t]
  rw [bigSep_W0, bigSep_W0]
  simp only [owns_whole_stg]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev⟩, Ha, Hc⟩, Ho, Hx, Hout⟩
  iapply (hb K c fun _ => bodyPost m ρ c)
  unfold bodyPre
  isplitr []
  · isplitl [Hg Hcr Hlev Ha Hc]
    · isplitl [Hg]; · iexact Hg
      isplitl [Hcr]; · iexact Hcr
      isplitl [Hlev]; · iexact Hlev
      isplitl [Ha]; · iexact Ha
      iexact Hc
    isplitl [Ho]; · iexact Ho
    isplitl [Hx] <;> iassumption
  · iintro H; iexact H

/-! ## The run -/

set_option maxRecDepth 8000 in
/-- At the compiled mesh of eight devices, for any float values, from any memory with zero counters: every weakly fair
    execution of @main — the eight kernels signalling one another on the runtime's barrier semaphore, then each copying
    its row of column sums into a slot of every other device's receive buffer — terminates, and every final state has
    each device's arrays at the contents the proof data computes. The ghost state's dealing enters as two hypotheses:
    the launch element `u₀` funds the pipeline's cells and deals every device `G`, and the global step makes of the
    devices' `G` and their semaphores at zero every device's ghost state. -/
theorem run_main (hb : BodySound m ρ) (u₀ : UU) (G : Dev nD → sProp 𝕄)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c
        ∗ unscopedSems0 c ∗ G c) : sProp 𝕄) ⊢ |={Set.univ}=> bigSep Finset.univ (G' m ρ)) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m ρ) (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is a window that is only read: it ends as launched. -/
theorem final_x (c : Dev nD) : (dats m ρ 0 c).arrAt (0 : Fin 2) cfg0.N = m ((c : Thread nD τ).loc main_arg0) :=
  (dats (F := F) m ρ 0 c).arrAt_in (0 : Fin 2) rfl _

/-- The one block of the argument's window is the whole array: the staged block is the array as launched. -/
theorem xstg_eq (c : Dev nD) : xstg m ρ c = m ((c : Thread nD τ).loc main_arg0) :=
  Memref.read_access_unit_zero (Elt F) main_arg0 (funext fun a => Nat.zero_mul _) _ _

/-- The result array is written back once, after the one point, whole: it ends holding the device's result row. -/
theorem final_out (c : Dev nD) : (dats m ρ 0 c).arrAt (1 : Fin 2) cfg0.N = outRow m ρ c := by
  have h : (dats m ρ 0 c).arrAt (1 : Fin 2) (t₀.val + 1)
      = ((cfg0.win (1 : Fin 2)).blk t₀).view.write (Elt F) ((dats m ρ 0 c).arrAt (1 : Fin 2) t₀.val) ((dats m ρ 0 c).flushed (1 : Fin 2) t₀) Finset.univ :=
    ((dats (F := F) m ρ 0 c).arrAt_succ (1 : Fin 2) t₀).trans (if_pos (flush0_1 t₀))
  have h2 := congrArg (((cfg0.win (1 : Fin 2)).blk t₀).view.read (Elt F)) h
  rw [View.read_write_univ] at h2
  rw [show cfg0.N = t₀.val + 1 from cfg0_N]
  exact (Memref.read_access_unit_zero (Elt F) main_v1 (funext fun a => Nat.zero_mul _) _ _).symm.trans h2

/-- THE RUN, with the values named: every device's result array ends holding its row of the mean and its argument
    array what it held at launch. -/
theorem run_value (hb : BodySound m ρ) (u₀ : UU) (G : Dev nD → sProp 𝕄)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c
        ∗ unscopedSems0 c ∗ G c) : sProp 𝕄) ⊢ |={Set.univ}=> bigSep Finset.univ (G' m ρ)) :
    θ_run defs (onTc (τ := τ) (main (F := F))) ⟨m, fun _ => 0, ρ⟩ (fun r => ∀ c : Dev nD,
      r.2.mem ((c.tc : Thread nD τ).loc main_v1) = outRow m ρ c
        ∧ r.2.mem ((c.tc : Thread nD τ).loc main_arg0) = m ((c.tc : Thread nD τ).loc main_arg0)) :=
  (θ_run defs _ _).mono (fun _ h c => ⟨(h c (1 : Fin 2)).trans (final_out m ρ c), (h c (0 : Fin 2)).trans (final_x m ρ c)⟩)
    (run_main m ρ hb u₀ G hu₀ hglob)

/-- info: 'Cert.KernelIdeal.Proto.run_value' depends on axioms: [propext, Classical.choice, Quot.sound] -/
#guard_msgs in #print axioms run_value

end Cert.KernelIdeal.Proto

end
-- ==== Proof.SumLaw.lean ====
/-
  The regrouping law behind a mean taken on a ring of devices, over any additive commutative monoid (so with
  no finiteness assumption on the summands).

  A sum over `m * n` consecutive rows is the sum, over the `m` blocks of `n` rows, of each block's own sum
  (`sum_blocks`); and a sum over the eight places of a ring may start at any place `c` and walk the ring
  backwards: `c`, then the place one before it, two before it, … seven before it (`sum_ring`).
-/
import Idealize.ShloMosaic.Lib.ValueIdx

open scoped BigOperators

namespace Cert.SumLaw

variable {M : Type*} [AddCommMonoid M]

/-- Row `r` of block `d`, among `m` blocks of `n` rows each, is row `d * n + r` of the whole. -/
theorem row_lt {m n : ℕ} (d : Fin m) (r : Fin n) : d.val * n + r.val < m * n :=
  calc d.val * n + r.val < d.val * n + n := Nat.add_lt_add_left r.isLt _
    _ = (d.val + 1) * n := (Nat.succ_mul _ _).symm
    _ ≤ m * n := Nat.mul_le_mul_right _ d.isLt

/-- A sum over `N = m * n` rows is the sum over the `m` blocks of the sums over each block's `n` rows. -/
theorem sum_blocks {m n N : ℕ} (hN : N = m * n) (f : Fin N → M) :
    ∑ k, f k = ∑ d : Fin m, ∑ r : Fin n, f ⟨d.val * n + r.val, hN ▸ row_lt d r⟩ := by
  subst hN
  rw [← Equiv.sum_comp finProdFinEquiv f, Fintype.sum_prod_type]
  refine Finset.sum_congr rfl fun d _ => Finset.sum_congr rfl fun r _ => congrArg f (Fin.ext ?_)
  show r.val + n * d.val = d.val * n + r.val
  rw [Nat.add_comm, Nat.mul_comm]

/-- A sum over the eight places of a ring, started at `c` and walked backwards. -/
theorem sum_ring (c : Fin 8) (g : Fin 8 → M) :
    ∑ d, g d = g c + g (c - 1) + g (c - 2) + g (c - 3) + g (c - 4) + g (c - 5) + g (c - 6) + g (c - 7) := by
  rw [← Equiv.sum_comp (Equiv.subLeft c) g, Fin.sum_univ_eight]
  simp only [Equiv.subLeft_apply, sub_zero]

end Cert.SumLaw
-- ==== Proof.RefValue.lean ====
/-
  The value side of the certificate: what a device of the ring ends with is the reference's mean.

  The whole array `X` has 16384 rows and 1024 columns; device `k` holds rows `2048 k … 2048 k + 2047`. Each device
  sums its block's rows column by column (a row of 1024 column sums), the eight rows travel round the ring, and
  device `c` adds its own row and the seven it receives (from the device one place before it, two places before
  it, … seven places before it) and multiplies by 2⁻¹⁴. The reference sums all 16384 rows column by column and
  divides by 16384.

  Column by column the two agree on every extended real, finite or not: a sum over 16384 rows is the sum over
  the eight blocks of each block's sum, and the eight blocks may be added in the ring's order starting at any
  device, because addition of extended reals is commutative and associative (`Cert.SumLaw`); and dividing an
  extended real by the real 16384 is multiplying it by the real 1/16384. The words `0x46800000` and `0x38800000`
  denote exactly 16384 = 2¹⁴ and 1/16384 = 2⁻¹⁴.
-/
import proofs.«900949_g7700000000000950_dist_mean_ax0_shard0_i_m2048_n1024_v7x_i8_f32_1_alg».proof.Proof.KernelIdeal.ValueSpec
import proofs.«900949_g7700000000000950_dist_mean_ax0_shard0_i_m2048_n1024_v7x_i8_f32_1_alg».proof.Proof.Gen.ReferenceIdeal.Run
import proofs.«900949_g7700000000000950_dist_mean_ax0_shard0_i_m2048_n1024_v7x_i8_f32_1_alg».proof.Proof.Gen.ReferenceIdeal.Read
import proofs.«900949_g7700000000000950_dist_mean_ax0_shard0_i_m2048_n1024_v7x_i8_f32_1_alg».proof.Defs
import proofs.«900949_g7700000000000950_dist_mean_ax0_shard0_i_m2048_n1024_v7x_i8_f32_1_alg».proof.Proof.SumLaw
import Idealize.ShloMosaic.Lib.ValueLayout
import Idealize.ShloMosaic.Lib.Layout
import Idealize.ShloMosaic.PureOps.Ideal.Laws

noncomputable section

namespace Cert.RefValue

open Idealize.ShloMosaic Idealize.ShloMosaic.ValueIdx
open Cert.KernelIdeal Cert.KernelIdeal.Gen Cert.KernelIdeal.Spec
open scoped BigOperators

/-! ## The two constants -/

/-- The reference's divisor, the word `0x46800000`, denotes the real 16384 = 2¹⁴. -/
theorem ofBits_16384 : Ideal.ofBits .f32 0x46800000#32 = ((16384 : ℝ) : EReal) := by
  simp [Ideal.ofBits, Ideal.ieee, -EReal.coe_mul]; norm_num

/-- The kernel's factor, the word `0x38800000`, denotes the real 1/16384 = 2⁻¹⁴. -/
theorem ofBits_inv_16384 : Ideal.ofBits .f32 0x38800000#32 = ((1 / 16384 : ℝ) : EReal) := by
  simp [Ideal.ofBits, Ideal.ieee, -EReal.coe_mul]; norm_num

/-! ## A block's column sums -/

/-- The stored row is the block's sum over axis 0 seen as a `[1, 1024]` row: the casts of a shape to itself
    around it are the identity. -/
theorem colsums_eq (x : FVec Ideal S2048x1024 .f32) :
    colsums (F := Ideal) x
      = shapeCast S1x1024 (multiReduction .add [0] S1024 x 0x00000000#32 reduces_S2048x1024_S1024 (.inl rfl) rfl)
          shapeCasts_S1024_S1x1024 := by
  unfold colsums k0_pay2 k0_pay1
  simp only [shapeCast_self]

/-- The column sums of a block at column `q`: the sum of that column over the block's 2048 rows. -/
theorem colsums_apply (x : FVec Ideal S2048x1024 .f32) (u : Fin 1) (q : Fin 1024) :
    colsums (F := Ideal) x (ix2 u q) = ∑ r : Fin 2048, x (ix2 r q) := by
  rw [colsums_eq, shapeCast_a_1a_apply]
  refine (Ideal.multiReduction_add_single x 0x00000000#32 reduces_S2048x1024_S1024 (.inl rfl) rfl (ix1 q)).trans ?_
  exact Finset.sum_congr rfl fun r _ =>
    congrArg x (funext fun a => Fin.ext (by match a with | ⟨0, _⟩ => rfl | ⟨1, _⟩ => rfl))

/-! ## A device's result, column by column -/

/-- A row placed in a slot of the receive buffer and read back as a row is the row. -/
theorem slot_roundtrip (a : FVec Ideal S1x1024 .f32) :
    (shapeCast S1x1024 (asSlot (F := Ideal) a) shapeCasts_S1x1x1024_S1x1024 : FVec Ideal S1x1024 .f32) = a := by
  unfold asSlot; exact shapeCast_shapeCast a _ _

/-- Device `c`'s result at an index, when the eight rows read `g` there: `c`'s own entry plus the seven
    received ones, slot 0 first, times 1/16384. -/
theorem result_apply (a : Dev nD → FVec Ideal S1x1024 .f32) (c : Dev nD) (i : S1x1024.Idx) (g : Dev nD → EReal)
    (hg : ∀ d, a d i = g d) :
    result (F := Ideal) a c i
      = (g c + g (sender c 0) + g (sender c 1) + g (sender c 2) + g (sender c 3) + g (sender c 4) + g (sender c 5)
          + g (sender c 6)) * ((1 / 16384 : ℝ) : EReal) := by
  unfold result k0_pay5 k0_pay4 k0_pay3
  simp only [slot_roundtrip]
  simp only [mulf_apply, addf_apply, broadcast_apply, hg]
  rw [Ideal.ofBits_def, ofBits_inv_16384]

/-- The device whose row lands in slot `j` of `c`'s receive buffer is `j + 1` places before `c` on the ring. -/
theorem sender_sub (c : Dev nD) :
    sender c 0 = c - 1 ∧ sender c 1 = c - 2 ∧ sender c 2 = c - 3 ∧ sender c 3 = c - 4 ∧ sender c 4 = c - 5
      ∧ sender c 5 = c - 6 ∧ sender c 6 = c - 7 := by
  revert c; decide

/-! ## The whole array's columns -/

/-- Column `q` of the whole array, row by row. -/
def col (X : (⟨Cert.ReferenceIdeal.S16384x1024, .f32⟩ : BufTy).Contents (Elt Ideal)) (q : Fin 1024) : Fin 16384 → EReal :=
  fun k => X (ix2 k q)

/-- Block `d`'s column sums at column `q`: column `q` of the whole array summed over rows
    `2048 d … 2048 d + 2047`. -/
theorem colsums_block_apply (X : (⟨Cert.ReferenceIdeal.S16384x1024, .f32⟩ : BufTy).Contents (Elt Ideal)) (d : Dev nD)
    (u : Fin 1) (q : Fin 1024) :
    colsums (F := Ideal) (Layout.block ⟨2, ![2048, 1024]⟩ ⟨2, ![16384, 1024]⟩ 0 8 d X) (ix2 u q)
      = ∑ r : Fin 2048, col X q ⟨d.val * 2048 + r.val, SumLaw.row_lt (m := 8) d r⟩ := by
  rw [colsums_apply]
  refine Finset.sum_congr rfl fun r _ => ?_
  exact congrArg X (funext fun a => Fin.ext (by match a with | ⟨0, _⟩ => rfl | ⟨1, _⟩ => rfl))

/-! ## The reference, column by column -/

/-- The reference reads column `q` at row `k`: its two index maps composed. -/
theorem idx_reference (u : Fin 1) (q : Fin 1024) (k : Fin 16384) :
    Cert.ReferenceIdeal.Read.idx_main_v0 (Cert.ReferenceIdeal.Read.idx_main_v1 (ix2 u q)) k = ix2 k q :=
  funext fun a => Fin.ext (by match a with | ⟨0, _⟩ => rfl | ⟨1, _⟩ => rfl)

/-- The reference at column `q`: the sum of column `q` over all 16384 rows (from zero), divided by 16384, which
    on every extended real is the product with 1/16384. -/
theorem reference_apply (X : (⟨Cert.ReferenceIdeal.S16384x1024, .f32⟩ : BufTy).Contents (Elt Ideal)) (u : Fin 1)
    (q : Fin 1024) :
    Cert.ReferenceIdeal.Read.val_main_v3 (F := Ideal) X (ix2 u q)
      = (∑ k : Fin 16384, col X q k) * ((1 / 16384 : ℝ) : EReal) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  simp only [Ideal.hostDivf_def, Ideal.ofBits_def, Ideal.ofBits_zero_f32, zero_add, ofBits_16384,
    Ideal.div_coe (by norm_num : (16384 : ℝ) ≠ 0), idx_reference, col]

/-! ## The two are one function -/

/-- Device `c`'s result, from the column sums of the eight blocks of the whole array `X`, is the reference's last
    stage of `X`: at column `q` both are the sum of the column over all 16384 rows times 1/16384, the kernel's
    taken block by block in the ring's order from `c`. -/
theorem result_eq_reference (X : (⟨Cert.ReferenceIdeal.S16384x1024, .f32⟩ : BufTy).Contents (Elt Ideal)) (c : Dev Cert.KernelIdeal.nD) :
    Cert.KernelIdeal.Spec.result (F := Ideal)
        (fun k => Cert.KernelIdeal.Spec.colsums (F := Ideal) (Layout.block ⟨2, ![2048, 1024]⟩ ⟨2, ![16384, 1024]⟩ 0 8 k X)) c
      = Cert.ReferenceIdeal.Read.val_main_v3 (F := Ideal) X := by
  funext i
  obtain ⟨u, q, rfl⟩ : ∃ (u : Fin 1) (q : Fin 1024), i = ix2 u q := ⟨i 0, i 1, eq_ix2 i⟩
  obtain ⟨h0, h1, h2, h3, h4, h5, h6⟩ := sender_sub c
  rw [reference_apply X u q, SumLaw.sum_blocks (m := 8) (n := 2048) rfl (col X q), SumLaw.sum_ring c,
    result_apply _ c (ix2 u q) (fun d => ∑ r : Fin 2048, col X q ⟨d.val * 2048 + r.val, SumLaw.row_lt (m := 8) d r⟩)
      (fun d => colsums_block_apply X d u q),
    h0, h1, h2, h3, h4, h5, h6]

end Cert.RefValue

end

/-- info: 'Cert.RefValue.result_eq_reference' depends on axioms: [propext, Classical.choice, Quot.sound] -/
#guard_msgs in #print axioms Cert.RefValue.result_eq_reference
-- ==== Proof.Assembly.lean ====
/-
  The certificate's claim, from the two body lemmas.

  Given that one device's body is sound at the word level and at the ideal level, the launch runs the whole mesh:
  every device's result array ends holding its row of the mean and its argument array what it held. Dropping the
  value gives the kernel's two frames. The reference's frame is its run with the result dropped. The idealization
  rewrote no operation, so there is nothing to preserve.

  The algebraic conjunct: the kernel's devices hold the eight blocks of 2048 rows of the reference's whole array
  of 16384 rows. Device `c`'s staged block is its argument array, that is block `c` of the whole array; its row of
  column sums is that block's; and its result, from the eight devices' rows, is the reference's last stage of the
  whole array — the same on every device. That stage is the value both runs end with.
-/
import proofs.«900949_g7700000000000950_dist_mean_ax0_shard0_i_m2048_n1024_v7x_i8_f32_1_alg».proof.Defs
import proofs.«900949_g7700000000000950_dist_mean_ax0_shard0_i_m2048_n1024_v7x_i8_f32_1_alg».proof.Proof.Gen.Kernel
import proofs.«900949_g7700000000000950_dist_mean_ax0_shard0_i_m2048_n1024_v7x_i8_f32_1_alg».proof.Proof.Gen.KernelIdeal
import proofs.«900949_g7700000000000950_dist_mean_ax0_shard0_i_m2048_n1024_v7x_i8_f32_1_alg».proof.Proof.Gen.ReferenceIdeal
import proofs.«900949_g7700000000000950_dist_mean_ax0_shard0_i_m2048_n1024_v7x_i8_f32_1_alg».proof.Proof.Gen.Pre_finite_inputs_Kernel
import proofs.«900949_g7700000000000950_dist_mean_ax0_shard0_i_m2048_n1024_v7x_i8_f32_1_alg».proof.Proof.Gen.Pre_finite_inputs_ReferenceIdeal
import proofs.«900949_g7700000000000950_dist_mean_ax0_shard0_i_m2048_n1024_v7x_i8_f32_1_alg».proof.Proof.Gen.ReferenceIdeal.Run
import proofs.«900949_g7700000000000950_dist_mean_ax0_shard0_i_m2048_n1024_v7x_i8_f32_1_alg».proof.Proof.Gen.ReferenceIdeal.Read
import proofs.«900949_g7700000000000950_dist_mean_ax0_shard0_i_m2048_n1024_v7x_i8_f32_1_alg».proof.Proof.KernelIdeal.LaunchGhost
import proofs.«900949_g7700000000000950_dist_mean_ax0_shard0_i_m2048_n1024_v7x_i8_f32_1_alg».proof.Proof.KernelIdeal.LaunchRun
import proofs.«900949_g7700000000000950_dist_mean_ax0_shard0_i_m2048_n1024_v7x_i8_f32_1_alg».proof.Proof.Kernel.LaunchGhost
import proofs.«900949_g7700000000000950_dist_mean_ax0_shard0_i_m2048_n1024_v7x_i8_f32_1_alg».proof.Proof.Kernel.LaunchRun
import proofs.«900949_g7700000000000950_dist_mean_ax0_shard0_i_m2048_n1024_v7x_i8_f32_1_alg».proof.Proof.RefValue

noncomputable section

namespace Cert.Assembly

open Idealize.ShloMosaic Idealize.SL.Sem

/-! ## The kernel's frames: the mesh's run with the value dropped -/

/-- The word-level kernel runs and leaves every device's argument array as it was. -/
theorem frame_Kernel (hbK : ∀ m ρ, Cert.Kernel.Proto.BodySound (F := Bits) m ρ) : Cert.frame_Kernel :=
  fun m ρ _ => (θ_run (Cert.Kernel.defs (F := Bits)) _ _).mono (fun _ h c => (h c).2)
    (Cert.Kernel.Proto.run_value (F := Bits) m ρ (hbK m ρ) Cert.Kernel.Proto.u₀ (Cert.Kernel.Proto.G m ρ)
      (Cert.Kernel.Proto.fund_all m ρ) (Cert.Kernel.Proto.glob m ρ))

/-- The same of the idealized kernel. -/
theorem frame_KernelIdeal (hbI : ∀ m ρ, Cert.KernelIdeal.Proto.BodySound (F := Ideal) m ρ) : Cert.frame_KernelIdeal :=
  fun m ρ _ => (θ_run (Cert.KernelIdeal.defs (F := Ideal)) _ _).mono (fun _ h c => (h c).2)
    (Cert.KernelIdeal.Proto.run_value (F := Ideal) m ρ (hbI m ρ) Cert.KernelIdeal.Proto.u₀ (Cert.KernelIdeal.Proto.G m ρ)
      (Cert.KernelIdeal.Proto.fund_all m ρ) (Cert.KernelIdeal.Proto.glob m ρ))

/-! ## The reference's frame: its run with the result dropped -/

theorem frame_ReferenceIdeal : Cert.frame_ReferenceIdeal :=
  fun m ρ _ => (θ_run (Cert.ReferenceIdeal.defs (F := Ideal)) _ _).mono (fun _ h c => (h c).2)
    (Cert.ReferenceIdeal.Value.run (F := Ideal) m ρ)

/-! ## The value: every device's result is the reference's -/

/-- When device `k`'s argument array is block `k` of the whole array `X`, for every `k`, device `c`'s result row is
    the reference's last stage of `X`: its own staged block is its argument array, each device's row of column
    sums is its block's, and the eight rows combine to the mean of all 16384 rows. -/
theorem outRow_eq (m : (ℓ : Loc Cert.KernelIdeal.nD Cert.KernelIdeal.τ Cert.KernelIdeal.sig) → Buf (Elt Ideal) ℓ)
    (ρ : Dev Cert.KernelIdeal.nD → PrngReg)
    (X : (⟨Cert.ReferenceIdeal.S16384x1024, .f32⟩ : BufTy).Contents (Elt Ideal))
    (hblk : ∀ k : Dev Cert.KernelIdeal.nD,
      m ((k.tc : Thread Cert.KernelIdeal.nD Cert.KernelIdeal.τ).loc Cert.KernelIdeal.main_arg0)
        = Layout.block ⟨2, ![2048, 1024]⟩ ⟨2, ![16384, 1024]⟩ 0 8 k X)
    (c : Dev Cert.KernelIdeal.nD) :
    Cert.KernelIdeal.Proto.outRow (F := Ideal) m ρ c = Cert.ReferenceIdeal.Read.val_main_v3 (F := Ideal) X := by
  have hrows : (fun k => Cert.KernelIdeal.Proto.accRow (F := Ideal) m ρ k)
      = fun k => Cert.KernelIdeal.Spec.colsums (F := Ideal) (Layout.block ⟨2, ![2048, 1024]⟩ ⟨2, ![16384, 1024]⟩ 0 8 k X) :=
    funext fun k => congrArg (Cert.KernelIdeal.Spec.colsums (F := Ideal)) ((Cert.KernelIdeal.Proto.xstg_eq (F := Ideal) m ρ k).trans (hblk k))
  unfold Cert.KernelIdeal.Proto.outRow
  rw [hrows]
  exact Cert.RefValue.result_eq_reference X c

/-- Both run, the reference's result ends holding its last stage of its argument array, every device's result holds
    the same, and the arguments of both end unchanged. -/
theorem algebraic (hbI : ∀ m ρ, Cert.KernelIdeal.Proto.BodySound (F := Ideal) m ρ) : Cert.algebraic_KernelIdeal_ReferenceIdeal :=
  fun m g m' g' _ hblk =>
    ⟨Cert.ReferenceIdeal.Read.val_main_v3 (F := Ideal)
        (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨(h c).1.trans (outRow_eq m g _ hblk c), (h c).2⟩)
        (Cert.KernelIdeal.Proto.run_value (F := Ideal) m g (hbI m g) Cert.KernelIdeal.Proto.u₀ (Cert.KernelIdeal.Proto.G m g)
          (Cert.KernelIdeal.Proto.fund_all m g) (Cert.KernelIdeal.Proto.glob m g)),
      (θ_run (Cert.ReferenceIdeal.defs (F := Ideal)) _ _).mono
        (fun _ h => ⟨(h 0).1.trans (Cert.ReferenceIdeal.Read.val_main_v3_eq _), (h 0).2⟩)
        (Cert.ReferenceIdeal.Value.run (F := Ideal) m' g')⟩

/-! ## The claim -/

/-- Everything the certificate claims, given the body lemma at both instances. -/
theorem claim_of (hbK : ∀ m ρ, Cert.Kernel.Proto.BodySound (F := Bits) m ρ)
    (hbI : ∀ m ρ, Cert.KernelIdeal.Proto.BodySound (F := Ideal) m ρ) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel hbK, frame_KernelIdeal hbI, frame_ReferenceIdeal, trivial, algebraic hbI⟩

/-- info: 'Cert.Assembly.claim_of' depends on axioms: [propext, Classical.choice, Quot.sound] -/
#guard_msgs in #print axioms claim_of

end Cert.Assembly

end
-- ==== Proof.KernelIdeal.Slots.lean ====
/-
  The receive buffer by slots: each slot's element set, the buffer cut into its seven slots and joined back,
  what a landed copy leaves in a slot, and what a load of a slot reads.

  Slot `j` of a device's `[7, 1, 1024]` receive buffer is the rectangle of the indices whose first coordinate
  is `j`. The seven rectangles are pairwise disjoint and cover the buffer. A copy of a `[1, 1024]` row into slot
  `j` overwrites exactly that rectangle with the row, whatever the slot held; read back as a `[1, 1, 1024]`
  vector it is the row again.
-/
import proofs.«900949_g7700000000000950_dist_mean_ax0_shard0_i_m2048_n1024_v7x_i8_f32_1_alg».proof.Proof.KernelIdeal.Proto
import Idealize.ShloMosaic.Lib.Pipeline.Value
import Idealize.ShloMosaic.Lib.ValueLayout

noncomputable section

namespace Cert.KernelIdeal.Proto

open Cert.KernelIdeal Cert.KernelIdeal.Gen Cert.KernelIdeal.Spec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Indices of the receive buffer by coordinates -/

/-- An index of the receive buffer lies in slot `j`'s rectangle exactly when its first coordinate is `j`:
    on the other two axes the rectangle is the whole extent. -/
theorem mem_slotR (j : Fin 7) (i : S7x1x1024.Idx) : i ∈ (slotR j).set ↔ i 0 = j := by
  rw [Rect.mem_set_unit]
  have h1 : (i 1).val < 1 := (i 1).isLt
  have h2 : (i 2).val < 1024 := (i 2).isLt
  constructor
  · intro h
    have h0 := h 0
    change j.val ≤ (i 0).val ∧ (i 0).val < j.val + 1 at h0
    exact Fin.ext (by omega)
  · intro h a
    have h0 : (i 0).val = j.val := congrArg Fin.val h
    match a with
    | ⟨0, _⟩ => change j.val ≤ (i 0).val ∧ (i 0).val < j.val + 1; omega
    | ⟨1, _⟩ => change 0 ≤ (i 1).val ∧ (i 1).val < 0 + 1; omega
    | ⟨2, _⟩ => change 0 ≤ (i 2).val ∧ (i 2).val < 0 + 1024; omega

/-- Slot `j`'s rectangle places its own index `(u, a, b)` at `(j, a, b)`: the offset is `j` on the first axis
    and zero on the others, and the first axis has the one coordinate `u = 0`. -/
theorem slotR_idx (j : Fin 7) (u : Fin 1) (a : Fin 1) (b : Fin 1024) :
    (slotR j).emb (ix3 u a b) = ix3 j a b := by
  funext k
  apply Fin.ext
  rw [Rect.emb_apply]
  have hu : u.val = 0 := by omega
  match k with
  | ⟨0, _⟩ => show j.val + 1 * u.val = j.val; omega
  | ⟨1, _⟩ => show 0 + 1 * a.val = a.val; omega
  | ⟨2, _⟩ => show 0 + 1 * b.val = b.val; omega

/-- The slot seen as a `[1, 1024]` row: its index `(a, b)` is the buffer's `(j, a, b)`. -/
theorem slot_emb (j : Fin 7) (a : Fin 1) (b : Fin 1024) :
    (slotM j).view.emb (ix2 a b) = ix3 j a b := by
  show (slotR j).emb (Shape.reshapeEquiv squeezes_S1x1x1024_S1x1024.numel_eq (ix2 a b)) = _
  rw [reshapeEquiv_ix2_1ab, slotR_idx]

/-- The filled receive buffer at `(j, a, b)` holds entry `(a, b)` of the row of the device `j + 1` places before. -/
theorem recvFill_ix3 (c : Dev nD) (j : Fin 7) (a : Fin 1) (b : Fin 1024) :
    recvFill m ρ c (ix3 j a b) = accRow m ρ (sender c j) (ix2 a b) := by
  unfold recvFill asSlot
  have e : (fun k : Fin 3 => match k with | 0 => (⟨0, by decide⟩ : Fin 1) | 1 => a | 2 => b)
      = ix3 (⟨0, by decide⟩ : Fin 1) a b := by
    funext k; match k with | ⟨0, _⟩ => rfl | ⟨1, _⟩ => rfl | ⟨2, _⟩ => rfl
  exact (congrArg _ e).trans (shapeCast_ab_1ab_apply _ _ _ a b)

/-- Two different slots share no index: the first coordinate would be both. -/
theorem slots_disjoint (j j' : Fin 7) (hne : j ≠ j') : Disjoint (slotR j).set (slotR j').set := by
  rw [Finset.disjoint_left]
  intro i hi hi'
  exact hne (((mem_slotR j i).mp hi).symm.trans ((mem_slotR j' i).mp hi'))

/-! ## The six facts about slots -/

/-- A slot's elements are its rectangle's. -/
theorem slot_set (j : Fin 7) : (slotM j).view.set = (slotR j).set := by
  exact (View.set_reshape ((View.whole cc0_scratch1 : View sig .tc _ _ _).slice (slotR j)) squeezes_S1x1x1024_S1x1024.numel_eq).trans
    (View.set_slice_whole cc0_scratch1 (slotR j))

/-- The receive buffer whole is its seven slots, as an equation: the seven rectangles cover the buffer (an index
    lies in the slot its first coordinate names) and are pairwise disjoint. -/
theorem cPts_eq (c : Dev nD) (f : Buf (Elt F) ((c : Thread nD τ).loc cc0_scratch1)) :
    (cPts c f : sProp 𝕄) = bigSep Finset.univ fun j : Fin 7 => slotPts c j f := by
  unfold cPts slotPts
  have hU : (Finset.univ : Finset (Idx ((c : Thread nD τ).loc cc0_scratch1)))
      = Finset.univ.biUnion fun j : Fin 7 => (slotM j).view.set := by
    refine Finset.ext fun i => ⟨fun _ => Finset.mem_biUnion.mpr ⟨i 0, Finset.mem_univ _, ?_⟩, fun _ => Finset.mem_univ _⟩
    exact (Finset.ext_iff.mp (slot_set (i 0)) i).mpr ((mem_slotR (i 0) i).mpr rfl)
  rw [hU]
  exact pointsTo_biUnion _ _ fun j _ j' _ hne => by
    have h := slots_disjoint j j' hne
    rw [← slot_set j, ← slot_set j'] at h
    exact h

/-- The receive buffer whole is its seven slots. -/
theorem cPts_split (c : Dev nD) (f : Buf (Elt F) ((c : Thread nD τ).loc cc0_scratch1)) :
    (cPts c f : sProp 𝕄) ⊢ bigSep Finset.univ fun j : Fin 7 => slotPts c j f := by
  exact Entails.of_eq (cPts_eq c f)

theorem cPts_join (c : Dev nD) (f : Buf (Elt F) ((c : Thread nD τ).loc cc0_scratch1)) :
    (bigSep Finset.univ fun j : Fin 7 => slotPts c j f) ⊢ (cPts c f : sProp 𝕄) := by
  exact Entails.of_eq (cPts_eq c f).symm

/-- A copy of `sender c j`'s row landed in slot `j` of `c`, over whatever the slot held: the slot holds its part of
    `recvFill`. -/
theorem slot_landed (c : Dev nD) (j : Fin 7) (fd : Buf (Elt F) ((slotM j).view.loc (c : Thread nD τ))) :
    ((slotM j).view.loc (c : Thread nD τ) ↦[(slotM j).view.set]{fullShare}
        ((slotM j).view.write (Elt F) fd ((aM : Memref sig .tc .vmem S1x1024 .f32).view.read (Elt F) (accRow m ρ (sender c j))) Finset.univ) : sProp 𝕄)
      = slotPts c j (recvFill m ρ c) := by
  unfold slotPts
  refine pointsTo_congr fun i hi => ?_
  have h0 : i 0 = j := (mem_slotR j i).mp (by rw [← slot_set]; exact hi)
  obtain ⟨a, b, rfl⟩ : ∃ (a : Fin 1) (b : Fin 1024), i = ix3 j a b :=
    ⟨i 1, i 2, by rw [← h0]; exact eq_ix3 i⟩
  rw [← slot_emb j a b, View.write_emb_of_mem _ _ (Finset.mem_univ _), View.read_apply, cast_cast, cast_eq,
    slot_emb, recvFill_ix3]
  rfl

/-- A load of slot `j` of the filled receive buffer reads `sender c j`'s row as a `[1, 1, 1024]` vector. -/
theorem read_slot (c : Dev nD) (j : Fin 7) :
    (cM : Memref sig .tc .vmem S7x1x1024 .f32).view.readAt (Elt F) (slotR j).toLoadRect (recvFill m ρ c) = asSlot (accRow m ρ (sender c j)) := by
  funext x
  obtain ⟨u, a, b, rfl⟩ : ∃ (u : Fin 1) (a : Fin 1) (b : Fin 1024), x = ix3 u a b := ⟨x 0, x 1, x 2, eq_ix3 x⟩
  rw [View.readAt_apply, View.read_apply]
  show _root_.cast _ (recvFill m ρ c ((slotR j).emb (ix3 u a b))) = _
  rw [slotR_idx, recvFill_ix3, cast_eq]
  exact (shapeCast_ab_1ab_apply _ _ u a b).symm

/-- The elements a load of slot `j` reads are the slot's. -/
theorem load_slot_sub (j : Fin 7) :
    (cM : Memref sig .tc .vmem S7x1x1024 .f32).view.setOn (slotR j).toLoadRect.set ⊆ (slotM j).view.set := by
  rw [slot_set]
  intro i hi
  obtain ⟨y, hy, rfl⟩ := Finset.mem_map.mp hi
  exact hy

/-- info: 'Cert.KernelIdeal.Proto.cPts_split' depends on axioms: [propext, Classical.choice, Quot.sound] -/
#guard_msgs in #print axioms cPts_split

/-- info: 'Cert.KernelIdeal.Proto.slot_landed' depends on axioms: [propext, Classical.choice, Quot.sound] -/
#guard_msgs in #print axioms slot_landed

/-- info: 'Cert.KernelIdeal.Proto.read_slot' depends on axioms: [propext, Classical.choice, Quot.sound] -/
#guard_msgs in #print axioms read_slot

end Cert.KernelIdeal.Proto

end
-- ==== Proof.KernelIdeal.Steps.lean ====
/-
  The four remote steps of one device's body, each for any slot: the rounds rule for the step at the ring's
  schedule, with what the schedule's tables say the step pays and is paid.

  A device signals the barrier cell of each target, paying the duty that names it there: it lends the slot of
  its own receive buffer that the target's copy will land in, with the fact that it has reached round 0 of that
  slot's receive cell. It copies its row of column sums into its slot of each target's receive buffer, paying the
  target's receive duty with the slot rewritten — the slot then holds its part of the target's filled buffer —
  and its own send duty with the read share of the row the copy was lent. It waits on each of its receive cells:
  the slot comes back holding the sender's row. It waits on each of its send cells: the read share comes back.
-/
import proofs.«900949_g7700000000000950_dist_mean_ax0_shard0_i_m2048_n1024_v7x_i8_f32_1_alg».proof.Proof.KernelIdeal.Slots
import proofs.«900949_g7700000000000950_dist_mean_ax0_shard0_i_m2048_n1024_v7x_i8_f32_1_alg».proof.Proof.KernelIdeal.Levels

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The barrier payload of a cell whose duty `d` the device `c` pays: `c`'s own slot `6 - d` and its reached-mark. -/
theorem barPay_at (c c' : Dev nD) (d : Fin 7) (h : target c' (rev d) = c) :
    barPay (F := F) c' d = iprop((∃ f, slotPts c (rev d) f) ∗ reached ER (recvCell c (rev d)) 0) := by
  unfold barPay; rw [h]

/-- Signal number `d`: one unit to the barrier cell of `target c d`, paying its duty `d` with slot `6 - d` of `c`'s own
    receive buffer, at whatever contents, and `c`'s reached-mark on that slot's receive cell. -/
theorem step_signal (K : Dev nD × CellIx → ℕ) (c n : Dev nD) (d j : Fin 7) (hn : n = target c d) (hj : rev d = j)
    {k' : ℕ} (hk : k' = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (target c d)) () 1)
    (W : Waits sig Unit) (f : Buf (Elt F) ((slotM j).view.loc (c : Thread nD τ))) :
    iprop(cellInv ER (ringRd m ρ) (K (target c d, none)) (barCell (target c d))
        ∗ owes (c : Thread nD τ) O₀ W
        ∗ dutyTok ER (barCell (target c d)) 0 d
        ∗ ((slotM j).view.loc (c : Thread nD τ) ↦[(slotM j).view.set]{fullShare} f)
        ∗ reached ER (recvCell c j) 0 ∗ reached ER (barCell (target c d)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hj; subst hk
  iintro ⟨HI, HO, Ht, Hs, Hr, HrB⟩ Hk
  iapply (Rounds.wp_signal 𝒱₀ ER (ringRd m ρ) (c : Thread nD τ) none (dst := (target c d : Thread nD τ)) (κ := K (target c d, none))
      (r := 0) (d := d) (by rw [duties_bar]; exact Finset.mem_univ _) (amount_bar m ρ (target c d) d) () O hO)
    $$ [HI HO Ht Hs Hr HrB]
  · isplitl [HI]; · iexact HI
    isplitl [HO]; · iexact HO
    isplitl [Ht]; · iexact Ht
    isplitl [Hs Hr]
    · rw [payload_bar, barPay_at c (target c d) d (target_target_rev c d)]
      unfold slotPts
      isplitl [Hs]; · iexists f; iexact Hs
      iexact Hr
    · iexact HrB
  iexact Hk

/-- Copy number `d`: `c`'s row into slot `d` of `target c d`, whatever that slot held. The read share of the row pays
    `c`'s send duty; the slot rewritten pays the target's receive duty, since the device `d + 1` places before
    `target c d` is `c`. -/
theorem step_send (K : Dev nD × CellIx → ℕ) (c n : Dev nD) (d : Fin 7) (hn : n = target c d)
    {hsc : (slotM d : Memref sig (Dev.tc n : Thread nD τ).2.kind .vmem S1x1024 .f32).view.ref.isScScratch = false}
    {hsrc : (aM : Memref sig .tc .vmem S1x1024 .f32).view.WordExact} {hdst : (slotM d : Memref sig .tc .vmem S1x1024 .f32).view.WordExact}
    {hsem : DmaTarget.Typed .vmem (.dma (recvSem d)) (.remote (Dev.tc n : Thread nD τ) (slotM d : Memref sig .tc .vmem S1x1024 .f32) (.dma (sendSem d)) hsc)}
    {α : Type} {Q : α → sProp 𝕄} {k : PUnit → Prog (TpuEff nD τ sig (Elt F) Λ₀ .tc) α}
    (fn : Buf (Elt F) ((slotM d).view.loc (target c d : Thread nD τ)))
    {O₀ : CellTallies nD τ sig Unit} (O : CellTallies nD τ sig Unit) (hO : O₀ = O + tallyAt (recvCell (target c d) d) () N)
    (W : Waits sig Unit) :
    iprop(cellInv ER (ringRd m ρ) (K (c, some (false, d))) (sendCell c d)
        ∗ cellInv ER (ringRd m ρ) (K (target c d, some (true, d))) (recvCell (target c d) d)
        ∗ accTok m ρ c d
        ∗ ((slotM d).view.loc (target c d : Thread nD τ) ↦[(slotM d).view.set]{fullShare} fn)
        ∗ owes (c : Thread nD τ) O₀ W
        ∗ dutyTok ER (sendCell c d) 0 0 ∗ reached ER (sendCell c d) 0
        ∗ dutyTok ER (recvCell (target c d) d) 0 0 ∗ reached ER (recvCell (target c d) d) 0)
      ⊢ iprop(((cred (tallyAt (sendCell c d) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM d) (.dma (sendSem d)) hsc) (.dma (recvSem d)) hsrc hdst hsem) k) Q) := by
  subst hn
  unfold accTok
  exact Rounds.wp_send_pointsTo 𝒱₀ ER (ringRd m ρ) (c : Thread nD τ) none
    (κ₁ := K (c, some (false, d))) (κ₂ := K (target c d, some (true, d)))
    (r₁ := 0) (r₂ := 0) (d₁ := 0) (d₂ := 0) (fd := fn)
    (by rw [duties_send]; exact Finset.mem_singleton_self _) (by rw [duties_recv]; exact Finset.mem_singleton_self _)
    () () N rfl (amount_send m ρ c d 0) (amount_recv m ρ (target c d) d 0) O hO (W := W)
    (by rw [payload_send]; unfold sendPay accTok; exact BI.Entails.refl _)
    (by
      rw [payload_recv]; unfold recvPay
      rw [← slot_landed m ρ (target c d) d fn, sender_target])

/-- The wait on receive cell `j`, owing nothing: slot `j` comes back holding its part of the filled buffer. Source and
    destination are as the wait names them; the destination's credit is a copy's. -/
theorem step_recvwait (K : Dev nD × CellIx → ℕ) (c : Dev nD) (j : Fin 7)
    {sp' : Space} {s' : Shape} {e' : EltTy} {κ' : Kind} {sp : Space} {s : Shape} {e : EltTy}
    {src : Memref sig .tc sp' s' e'} {dst : Memref sig κ' sp s e} {hs : src.view.WordExact} {hd : dst.view.WordExact}
    (hcred : dst.view.dmaCredit = N)
    {α : Type} {Q : α → sProp 𝕄} {k : PUnit → Prog (TpuEff nD τ sig (Elt F) Λ₀ .tc) α}
    (W : Waits sig Unit) :
    iprop(cellInv ER (ringRd m ρ) (K (c, some (true, j))) (recvCell c j)
        ∗ cred (tallyAt (recvCell c j) () N)
        ∗ owes (c : Thread nD τ) 0 W
        ∗ atPos ER (recvCell c j) 0 ∅ 0)
      ⊢ iprop(((owes (c : Thread nD τ) 0 (insert (SemLoc.dma (recvSem j), ()) W)
              ∗ atPos ER (recvCell c j) 1 ∅ 0
              ∗ slotPts c j (recvFill m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvSem j) src dst hs hd) k) Q) := by
  iintro ⟨HI, Hc, HO, Hat⟩ Hk
  iapply (Rounds.wp_wait_rest_token 𝒱₀ ER (ringRd m ρ) (c : Thread nD τ) none (κ := K (c, some (true, j)))
      (sm := .dma (recvSem j)) (k' := N)
      (fun Kk => (wpE_waitDma2_eq 𝒱₀ (c : Thread nD τ) none Set.univ Kk).trans (by rw [hcred]))
      (Set.mem_univ _) () (O := 0) (W := W) (R := 0) (m := 0) (T := ∅)
      (by rw [Nat.zero_add, expect_recv])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hs := (Entails.of_eq (rest_recv m ρ c j)) $$ Hpay
  unfold recvPay
  iapply Hk
  isplitl [HO]; · iexact HO
  isplitl [Hat]; · iexact Hat
  iexact Hs

/-- The wait on send cell `j`, owing nothing: the read share of the row that copy number `j` was lent comes back. -/
theorem step_sendwait (K : Dev nD × CellIx → ℕ) (c : Dev nD) (j : Fin 7)
    {sp' : Space} {s' : Shape} {e' : EltTy} {κ' : Kind} {sp : Space} {s : Shape} {e : EltTy}
    {src : Memref sig .tc sp' s' e'} {dst : Memref sig κ' sp s e} {hs : src.view.WordExact} {hd : dst.view.WordExact}
    (hcred : dst.view.dmaCredit = N)
    {α : Type} {Q : α → sProp 𝕄} {k : PUnit → Prog (TpuEff nD τ sig (Elt F) Λ₀ .tc) α}
    (W : Waits sig Unit) :
    iprop(cellInv ER (ringRd m ρ) (K (c, some (false, j))) (sendCell c j)
        ∗ cred (tallyAt (sendCell c j) () N)
        ∗ owes (c : Thread nD τ) 0 W
        ∗ atPos ER (sendCell c j) 0 ∅ 0)
      ⊢ iprop(((owes (c : Thread nD τ) 0 (insert (SemLoc.dma (sendSem j), ()) W)
              ∗ atPos ER (sendCell c j) 1 ∅ 0
              ∗ accTok m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem j) src dst hs hd) k) Q) := by
  iintro ⟨HI, Hc, HO, Hat⟩ Hk
  iapply (Rounds.wp_wait_rest_token 𝒱₀ ER (ringRd m ρ) (c : Thread nD τ) none (κ := K (c, some (false, j)))
      (sm := .dma (sendSem j)) (k' := N)
      (fun Kk => (wpE_waitDma2_eq 𝒱₀ (c : Thread nD τ) none Set.univ Kk).trans (by rw [hcred]))
      (Set.mem_univ _) () (O := 0) (W := W) (R := 0) (m := 0) (T := ∅)
      (by rw [Nat.zero_add, expect_send])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hs := (Entails.of_eq (rest_send m ρ c j)) $$ Hpay
  unfold sendPay
  iapply Hk
  isplitl [HO]; · iexact HO
  isplitl [Hat]; · iexact Hat
  iexact Hs

end Cert.KernelIdeal.Proto

end
-- ==== Proof.KernelIdeal.BodyEnd.lean ====
/-
  The end of a device's body: closing its own cells, the row buffer by read shares, and the values.

  After its one round each of a device's fourteen own DMA cells stands at round 1, where no round has a duty
  any more: the device closes them and keeps their counters at zero. The row buffer is lent to the seven
  copies by read shares — one share per send cell and a remainder the device's own loads read through — and
  joined back whole once the seven sends are waited for. The values: the row stored is the column sums of the
  staged block; a store over a whole buffer leaves what was stored; the result row is the device's own row
  plus the seven slots of its filled receive buffer, scaled.
-/
import proofs.«900949_g7700000000000950_dist_mean_ax0_shard0_i_m2048_n1024_v7x_i8_f32_1_alg».proof.Proof.KernelIdeal.Slots
import proofs.«900949_g7700000000000950_dist_mean_ax0_shard0_i_m2048_n1024_v7x_i8_f32_1_alg».proof.Proof.KernelIdeal.Levels

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the own cells -/

/-- One own DMA cell at round 1, where no round has a duty any more, closes with its counter at zero. -/
theorem close_cell (κ : ℕ) (g : GSem nD τ sig) :
    iprop(cellInv ER (ringRd m ρ) κ g ∗ atPos ER g 1 ∅ 0) ⊢ (|={Set.univ}=> semVal g 0 : sProp 𝕄) :=
  Rounds.cell_close ER (ringRd m ρ) (Set.mem_univ κ) (fun h => h) (duties_later m ρ g)

/-- Send cell `j` and receive cell `j` together. -/
theorem close_pair (K : Dev nD × CellIx → ℕ) (c : Dev nD) (j : Fin 7) :
    iprop((cellInv ER (ringRd m ρ) (K (c, some (false, j))) (sendCell c j) ∗ cellInv ER (ringRd m ρ) (K (c, some (true, j))) (recvCell c j))
        ∗ (atPos ER (sendCell c j) 1 ∅ 0 ∗ atPos ER (recvCell c j) 1 ∅ 0))
      ⊢ (|={Set.univ}=> iprop(semVal (sendCell c j) 0 ∗ semVal (recvCell c j) 0) : sProp 𝕄) := by
  iintro ⟨⟨Is, Ir⟩, ⟨Ps, Pr⟩⟩
  imod (close_cell m ρ (K (c, some (false, j))) (sendCell c j)) $$ [Is Ps] with Hs
  · isplitl [Is] <;> iassumption
  imod (close_cell m ρ (K (c, some (true, j))) (recvCell c j)) $$ [Ir Pr] with Hr
  · isplitl [Ir] <;> iassumption
  imodintro
  isplitl [Hs] <;> iassumption

/-- The fourteen own cells, each at round 1, close: the own semaphores at zero. -/
theorem close_own (K : Dev nD × CellIx → ℕ) (c : Dev nD) :
    iprop((bigSep Finset.univ fun j : Fin 7 =>
          iprop(cellInv ER (ringRd m ρ) (K (c, some (false, j))) (sendCell c j) ∗ cellInv ER (ringRd m ρ) (K (c, some (true, j))) (recvCell c j)))
        ∗ (bigSep Finset.univ fun j : Fin 7 => iprop(atPos ER (sendCell c j) 1 ∅ 0 ∗ atPos ER (recvCell c j) 1 ∅ 0)))
      ⊢ (|={Set.univ}=> ownZero c : sProp 𝕄) := by
  rw [← bigSep_sep']
  unfold ownZero
  exact (bigSep_mono fun j _ => close_pair m ρ K c j).trans (bigSep_fupd _ _)

omit [FloatOps F] in
theorem bigSep_seven' (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A device's own send and receive invariants out of the ones its body opens. -/
theorem invs_own (K : Dev nD × CellIx → ℕ) (c : Dev nD) :
    invs m ρ K c ⊢ bigSep Finset.univ fun j : Fin 7 =>
      iprop(cellInv ER (ringRd m ρ) (K (c, some (false, j))) (sendCell c j) ∗ cellInv ER (ringRd m ρ) (K (c, some (true, j))) (recvCell c j)) := by
  refine BI.Entails.trans (show invs m ρ K c ⊢ bigSep Finset.univ fun k : CellIx => cellInv ER (ringRd m ρ) (K (c, k)) (kcell (c, k)) from by
    unfold invs; iintro ⟨H, -⟩; iexact H) (bigSep_intro_persistent fun j _ => ?_)
  have hs : (bigSep Finset.univ fun k : CellIx => (cellInv ER (ringRd m ρ) (K (c, k)) (kcell (c, k)) : sProp 𝕄))
      ⊢ cellInv ER (ringRd m ρ) (K (c, some (false, j))) (sendCell c j) := bigSep_elim (Finset.mem_univ (some (false, j) : CellIx))
  have hr : (bigSep Finset.univ fun k : CellIx => (cellInv ER (ringRd m ρ) (K (c, k)) (kcell (c, k)) : sProp 𝕄))
      ⊢ cellInv ER (ringRd m ρ) (K (c, some (true, j))) (recvCell c j) := bigSep_elim (Finset.mem_univ (some (true, j) : CellIx))
  iintro #H
  isplitr
  · iapply hs; iexact H
  · iapply hr; iexact H

/-- The same from the body's invariants and the fourteen positions one by one: send 0 … 6, then receive 0 … 6. -/
theorem close_own_chain (K : Dev nD × CellIx → ℕ) (c : Dev nD) :
    iprop(invs m ρ K c
        ∗ atPos ER (sendCell c 0) 1 ∅ 0 ∗ atPos ER (sendCell c 1) 1 ∅ 0 ∗ atPos ER (sendCell c 2) 1 ∅ 0 ∗ atPos ER (sendCell c 3) 1 ∅ 0
        ∗ atPos ER (sendCell c 4) 1 ∅ 0 ∗ atPos ER (sendCell c 5) 1 ∅ 0 ∗ atPos ER (sendCell c 6) 1 ∅ 0
        ∗ atPos ER (recvCell c 0) 1 ∅ 0 ∗ atPos ER (recvCell c 1) 1 ∅ 0 ∗ atPos ER (recvCell c 2) 1 ∅ 0 ∗ atPos ER (recvCell c 3) 1 ∅ 0
        ∗ atPos ER (recvCell c 4) 1 ∅ 0 ∗ atPos ER (recvCell c 5) 1 ∅ 0 ∗ atPos ER (recvCell c 6) 1 ∅ 0)
      ⊢ (|={Set.univ}=> ownZero c : sProp 𝕄) := by
  iintro ⟨Hi, S0, S1, S2, S3, S4, S5, S6, R0, R1, R2, R3, R4, R5, R6⟩
  iapply (close_own m ρ K c)
  isplitl [Hi]
  · iapply (invs_own m ρ K c); iexact Hi
  rw [bigSep_seven']
  isplitl [S0 R0]; · isplitl [S0] <;> iassumption
  isplitl [S1 R1]; · isplitl [S1] <;> iassumption
  isplitl [S2 R2]; · isplitl [S2] <;> iassumption
  isplitl [S3 R3]; · isplitl [S3] <;> iassumption
  isplitl [S4 R4]; · isplitl [S4] <;> iassumption
  isplitl [S5 R5]; · isplitl [S5] <;> iassumption
  isplitl [S6] <;> iassumption

/-! ## The row buffer by read shares -/

omit [FloatOps F] in
/-- The row buffer whole is a remainder share and seven read shares, one per send cell. -/
theorem acc_split (c : Dev nD) (f : Buf (Elt F) ((c : Thread nD τ).loc cc0_scratch0)) :
    (((c : Thread nD τ).loc cc0_scratch0) ↦{fullShare} f : sProp 𝕄)
      ⊢ iprop(((aM : Memref sig .tc .vmem S1x1024 .f32).view.loc (c : Thread nD τ) ↦[(aM : Memref sig .tc .vmem S1x1024 .f32).view.set]{Transfers.shareDrop fullShare 7} f)
        ∗ ((aM : Memref sig .tc .vmem S1x1024 .f32).view.loc (c : Thread nD τ) ↦[(aM : Memref sig .tc .vmem S1x1024 .f32).view.set]{Transfers.shareTok fullShare 7 0} f)
        ∗ ((aM : Memref sig .tc .vmem S1x1024 .f32).view.loc (c : Thread nD τ) ↦[(aM : Memref sig .tc .vmem S1x1024 .f32).view.set]{Transfers.shareTok fullShare 7 1} f)
        ∗ ((aM : Memref sig .tc .vmem S1x1024 .f32).view.loc (c : Thread nD τ) ↦[(aM : Memref sig .tc .vmem S1x1024 .f32).view.set]{Transfers.shareTok fullShare 7 2} f)
        ∗ ((aM : Memref sig .tc .vmem S1x1024 .f32).view.loc (c : Thread nD τ) ↦[(aM : Memref sig .tc .vmem S1x1024 .f32).view.set]{Transfers.shareTok fullShare 7 3} f)
        ∗ ((aM : Memref sig .tc .vmem S1x1024 .f32).view.loc (c : Thread nD τ) ↦[(aM : Memref sig .tc .vmem S1x1024 .f32).view.set]{Transfers.shareTok fullShare 7 4} f)
        ∗ ((aM : Memref sig .tc .vmem S1x1024 .f32).view.loc (c : Thread nD τ) ↦[(aM : Memref sig .tc .vmem S1x1024 .f32).view.set]{Transfers.shareTok fullShare 7 5} f)
        ∗ ((aM : Memref sig .tc .vmem S1x1024 .f32).view.loc (c : Thread nD τ) ↦[(aM : Memref sig .tc .vmem S1x1024 .f32).view.set]{Transfers.shareTok fullShare 7 6} f)) := by
  rw [show (aM : Memref sig .tc .vmem S1x1024 .f32).view.set = Finset.univ from View.set_whole _]
  have h : (((c : Thread nD τ).loc cc0_scratch0) ↦{fullShare} f : sProp 𝕄)
      ⊢ iprop((((c : Thread nD τ).loc cc0_scratch0) ↦[Finset.univ]{Transfers.shareDrop fullShare 7} f)
        ∗ bigSep Finset.univ fun i : Fin 7 => (((c : Thread nD τ).loc cc0_scratch0) ↦[Finset.univ]{Transfers.shareTok fullShare 7 i} f)) :=
    Transfers.pointsTo_toks_split fullShare 7
  rw [bigSep_seven'] at h
  exact h

omit [FloatOps F] in
/-- and the converse: the remainder and the seven read shares join back to the row buffer whole. -/
theorem acc_join (c : Dev nD) (f : Buf (Elt F) ((c : Thread nD τ).loc cc0_scratch0)) :
    iprop(((aM : Memref sig .tc .vmem S1x1024 .f32).view.loc (c : Thread nD τ) ↦[(aM : Memref sig .tc .vmem S1x1024 .f32).view.set]{Transfers.shareDrop fullShare 7} f)
        ∗ ((aM : Memref sig .tc .vmem S1x1024 .f32).view.loc (c : Thread nD τ) ↦[(aM : Memref sig .tc .vmem S1x1024 .f32).view.set]{Transfers.shareTok fullShare 7 0} f)
        ∗ ((aM : Memref sig .tc .vmem S1x1024 .f32).view.loc (c : Thread nD τ) ↦[(aM : Memref sig .tc .vmem S1x1024 .f32).view.set]{Transfers.shareTok fullShare 7 1} f)
        ∗ ((aM : Memref sig .tc .vmem S1x1024 .f32).view.loc (c : Thread nD τ) ↦[(aM : Memref sig .tc .vmem S1x1024 .f32).view.set]{Transfers.shareTok fullShare 7 2} f)
        ∗ ((aM : Memref sig .tc .vmem S1x1024 .f32).view.loc (c : Thread nD τ) ↦[(aM : Memref sig .tc .vmem S1x1024 .f32).view.set]{Transfers.shareTok fullShare 7 3} f)
        ∗ ((aM : Memref sig .tc .vmem S1x1024 .f32).view.loc (c : Thread nD τ) ↦[(aM : Memref sig .tc .vmem S1x1024 .f32).view.set]{Transfers.shareTok fullShare 7 4} f)
        ∗ ((aM : Memref sig .tc .vmem S1x1024 .f32).view.loc (c : Thread nD τ) ↦[(aM : Memref sig .tc .vmem S1x1024 .f32).view.set]{Transfers.shareTok fullShare 7 5} f)
        ∗ ((aM : Memref sig .tc .vmem S1x1024 .f32).view.loc (c : Thread nD τ) ↦[(aM : Memref sig .tc .vmem S1x1024 .f32).view.set]{Transfers.shareTok fullShare 7 6} f))
      ⊢ (aPts c f : sProp 𝕄) := by
  rw [show (aM : Memref sig .tc .vmem S1x1024 .f32).view.set = Finset.univ from View.set_whole _]
  have h : iprop((((c : Thread nD τ).loc cc0_scratch0) ↦[Finset.univ]{Transfers.shareDrop fullShare 7} f)
        ∗ bigSep Finset.univ fun i : Fin 7 => (((c : Thread nD τ).loc cc0_scratch0) ↦[Finset.univ]{Transfers.shareTok fullShare 7 i} f))
      ⊢ (((c : Thread nD τ).loc cc0_scratch0) ↦{fullShare} f : sProp 𝕄) :=
    Transfers.pointsTo_toks_join fullShare 7
  rw [bigSep_seven'] at h
  unfold aPts
  exact h

/-- The same at the row of column sums, the seven read shares as the send cells' payloads name them. -/
theorem acc_split_row (c : Dev nD) :
    aPts c (accRow m ρ c)
      ⊢ iprop(((aM : Memref sig .tc .vmem S1x1024 .f32).view.loc (c : Thread nD τ) ↦[(aM : Memref sig .tc .vmem S1x1024 .f32).view.set]{Transfers.shareDrop fullShare 7} accRow m ρ c)
        ∗ accTok m ρ c 0 ∗ accTok m ρ c 1 ∗ accTok m ρ c 2 ∗ accTok m ρ c 3 ∗ accTok m ρ c 4 ∗ accTok m ρ c 5 ∗ accTok m ρ c 6) := by
  unfold aPts accTok; exact acc_split c (accRow m ρ c)

theorem acc_join_row (c : Dev nD) :
    iprop(((aM : Memref sig .tc .vmem S1x1024 .f32).view.loc (c : Thread nD τ) ↦[(aM : Memref sig .tc .vmem S1x1024 .f32).view.set]{Transfers.shareDrop fullShare 7} accRow m ρ c)
        ∗ accTok m ρ c 0 ∗ accTok m ρ c 1 ∗ accTok m ρ c 2 ∗ accTok m ρ c 3 ∗ accTok m ρ c 4 ∗ accTok m ρ c 5 ∗ accTok m ρ c 6)
      ⊢ aPts c (accRow m ρ c) := by
  unfold accTok; exact acc_join c (accRow m ρ c)

/-! ## The values -/

omit [FloatOps F] in
theorem zero2 : (![0, 0] : Fin 2 → Nat) = fun _ => 0 := funext fun a => by fin_cases a <;> rfl

omit [FloatOps F] in
/-- A load of a whole staged block reads the block. -/
theorem read_x (f : (cc0_stg0_0 : Ref sig .tc).ty.Contents (Elt F)) :
    (xM : Memref sig .tc .vmem S2048x1024 .f32).view.readAt (Elt F) (Rect.unit (s := S2048x1024) ![0, 0] S2048x1024.size inb_S2048x1024_S2048x1024_0_0).toLoadRect f = f :=
  Memref.readAt_unit_zero (Elt F) cc0_stg0_0 zero2 _ f

/-- The row a device stores first: the column sums of what a load of its staged block reads. -/
theorem acc_value (c : Dev nD) :
    k0_pay2 (k0_pay1 ((xM : Memref sig .tc .vmem S2048x1024 .f32).view.readAt (Elt F)
      (Rect.unit (s := S2048x1024) ![0, 0] S2048x1024.size inb_S2048x1024_S2048x1024_0_0).toLoadRect (xstg m ρ c))) = accRow m ρ c := by
  rw [read_x]; rfl

omit [FloatOps F] in
/-- A store of a row over the whole row buffer, whatever it held, leaves the row; -/
theorem write_acc (f v : (cc0_scratch0 : Ref sig .tc).ty.Contents (Elt F)) :
    ((aM : Memref sig .tc .vmem S1x1024 .f32).access (Rect.unit (s := S1x1024) ![0, 0] S1x1024.size inb_S1x1024_S1x1024_0_0) : View sig .tc _ _ _).write (Elt F) f v Finset.univ = v :=
  Memref.write_access_unit_zero_univ (Elt F) cc0_scratch0 zero2 _ f v

omit [FloatOps F] in
/-- likewise over the whole staged result row. -/
theorem write_out (f v : (cc0_stg1_0 : Ref sig .tc).ty.Contents (Elt F)) :
    ((oM : Memref sig .tc .vmem S1x1024 .f32).access (Rect.unit (s := S1x1024) ![0, 0] S1x1024.size inb_S1x1024_S1x1024_0_0) : View sig .tc _ _ _).write (Elt F) f v Finset.univ = v :=
  Memref.write_access_unit_zero_univ (Elt F) cc0_stg1_0 zero2 _ f v

omit [FloatOps F] in
/-- A load of the whole row buffer reads the row it holds; -/
theorem read_acc (f : (cc0_scratch0 : Ref sig .tc).ty.Contents (Elt F)) :
    (aM : Memref sig .tc .vmem S1x1024 .f32).view.readAt (Elt F) (Rect.unit (s := S1x1024) ![0, 0] S1x1024.size inb_S1x1024_S1x1024_0_0).toLoadRect f = f :=
  Memref.readAt_unit_zero (Elt F) cc0_scratch0 zero2 _ f

omit [FloatOps F] in
/-- likewise of the whole staged result row. -/
theorem read_out (f : (cc0_stg1_0 : Ref sig .tc).ty.Contents (Elt F)) :
    (oM : Memref sig .tc .vmem S1x1024 .f32).view.readAt (Elt F) (Rect.unit (s := S1x1024) ![0, 0] S1x1024.size inb_S1x1024_S1x1024_0_0).toLoadRect f = f :=
  Memref.readAt_unit_zero (Elt F) cc0_stg1_0 zero2 _ f

/-- The result row: the device's own row plus what loads of the seven slots of its filled receive buffer read, slot 0
    first, scaled — each slot reads as its sender's row. -/
theorem out_value (c : Dev nD) :
    k0_pay5 (k0_pay4 (k0_pay3 (accRow m ρ c)
        ((cM : Memref sig .tc .vmem S7x1x1024 .f32).view.readAt (Elt F) (slotR 0).toLoadRect (recvFill m ρ c))
        ((cM : Memref sig .tc .vmem S7x1x1024 .f32).view.readAt (Elt F) (slotR 1).toLoadRect (recvFill m ρ c)))
        ((cM : Memref sig .tc .vmem S7x1x1024 .f32).view.readAt (Elt F) (slotR 2).toLoadRect (recvFill m ρ c))
        ((cM : Memref sig .tc .vmem S7x1x1024 .f32).view.readAt (Elt F) (slotR 3).toLoadRect (recvFill m ρ c))
        ((cM : Memref sig .tc .vmem S7x1x1024 .f32).view.readAt (Elt F) (slotR 4).toLoadRect (recvFill m ρ c)))
        ((cM : Memref sig .tc .vmem S7x1x1024 .f32).view.readAt (Elt F) (slotR 5).toLoadRect (recvFill m ρ c))
        ((cM : Memref sig .tc .vmem S7x1x1024 .f32).view.readAt (Elt F) (slotR 6).toLoadRect (recvFill m ρ c))
      = outRow m ρ c := by
  rw [read_slot, read_slot, read_slot, read_slot, read_slot, read_slot, read_slot]
  rfl

/-- info: 'Cert.KernelIdeal.Proto.close_own_chain' depends on axioms: [propext, Classical.choice, Quot.sound] -/
#guard_msgs in #print axioms close_own_chain

/-- info: 'Cert.KernelIdeal.Proto.acc_join' depends on axioms: [propext, Classical.choice, Quot.sound] -/
#guard_msgs in #print axioms acc_join

/-- info: 'Cert.KernelIdeal.Proto.out_value' depends on axioms: [propext, Classical.choice, Quot.sound] -/
#guard_msgs in #print axioms out_value

end Cert.KernelIdeal.Proto

end
-- ==== Proof.KernelIdeal.BodyFinish.lean ====
/-
  The end of a device's body, once its last send wait has returned.

  The device then stands past the one round of each of its fourteen own DMA cells, so it closes them and keeps
  their counters at zero. The seven read shares of its row buffer are back from the send cells and join the
  remainder share to the buffer whole, still holding its row of column sums. The seven slots of its receive
  buffer, each filled by its sender's copy, join to the buffer whole holding the seven senders' rows. It owes
  nothing any more. With the staged block untouched and the staged result holding its row of the mean, this is
  what the body must leave.
-/
import proofs.«900949_g7700000000000950_dist_mean_ax0_shard0_i_m2048_n1024_v7x_i8_f32_1_alg».proof.Proof.KernelIdeal.Slots
import proofs.«900949_g7700000000000950_dist_mean_ax0_shard0_i_m2048_n1024_v7x_i8_f32_1_alg».proof.Proof.KernelIdeal.Levels
import proofs.«900949_g7700000000000950_dist_mean_ax0_shard0_i_m2048_n1024_v7x_i8_f32_1_alg».proof.Proof.KernelIdeal.BodyEnd

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven in a row -/

omit [FloatOps F] in
/-- Seven assertions one after the other are the seven together. -/
theorem chain_seven (Φ : Fin 7 → sProp 𝕄) :
    iprop(Φ 0 ∗ Φ 1 ∗ Φ 2 ∗ Φ 3 ∗ Φ 4 ∗ Φ 5 ∗ Φ 6) ⊢ bigSep Finset.univ Φ :=
  Entails.of_eq (bigSep_seven' Φ).symm

omit [FloatOps F] in
/-- Two rows of seven, paired off number by number. -/
theorem pairs_seven (Φ Ψ : Fin 7 → sProp 𝕄) :
    iprop((Φ 0 ∗ Φ 1 ∗ Φ 2 ∗ Φ 3 ∗ Φ 4 ∗ Φ 5 ∗ Φ 6) ∗ (Ψ 0 ∗ Ψ 1 ∗ Ψ 2 ∗ Ψ 3 ∗ Ψ 4 ∗ Ψ 5 ∗ Ψ 6))
      ⊢ bigSep Finset.univ fun j : Fin 7 => iprop(Φ j ∗ Ψ j) := by
  rw [bigSep_sep', bigSep_seven', bigSep_seven']

/-! ## The end of the body -/

/-- From the fourteen own cells past their one round, the row buffer's remainder and its seven read shares, the seven
    filled slots, nothing owed, and the two staged buffers: the body's postcondition. -/
theorem body_finish (K : Dev nD × CellIx → ℕ) (c : Dev nD) (W : Waits sig Unit) :
    iprop((cellInv ER (ringRd m ρ) (K (c, some (false, 0))) (sendCell c 0)
          ∗ cellInv ER (ringRd m ρ) (K (c, some (false, 1))) (sendCell c 1)
          ∗ cellInv ER (ringRd m ρ) (K (c, some (false, 2))) (sendCell c 2)
          ∗ cellInv ER (ringRd m ρ) (K (c, some (false, 3))) (sendCell c 3)
          ∗ cellInv ER (ringRd m ρ) (K (c, some (false, 4))) (sendCell c 4)
          ∗ cellInv ER (ringRd m ρ) (K (c, some (false, 5))) (sendCell c 5)
          ∗ cellInv ER (ringRd m ρ) (K (c, some (false, 6))) (sendCell c 6))
        ∗ (cellInv ER (ringRd m ρ) (K (c, some (true, 0))) (recvCell c 0)
          ∗ cellInv ER (ringRd m ρ) (K (c, some (true, 1))) (recvCell c 1)
          ∗ cellInv ER (ringRd m ρ) (K (c, some (true, 2))) (recvCell c 2)
          ∗ cellInv ER (ringRd m ρ) (K (c, some (true, 3))) (recvCell c 3)
          ∗ cellInv ER (ringRd m ρ) (K (c, some (true, 4))) (recvCell c 4)
          ∗ cellInv ER (ringRd m ρ) (K (c, some (true, 5))) (recvCell c 5)
          ∗ cellInv ER (ringRd m ρ) (K (c, some (true, 6))) (recvCell c 6))
        ∗ (atPos ER (sendCell c 0) 1 ∅ 0 ∗ atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0)
        ∗ (atPos ER (recvCell c 0) 1 ∅ 0 ∗ atPos ER (recvCell c 1) 1 ∅ 0 ∗ atPos ER (recvCell c 2) 1 ∅ 0 ∗ atPos ER (recvCell c 3) 1 ∅ 0 ∗ atPos ER (recvCell c 4) 1 ∅ 0 ∗ atPos ER (recvCell c 5) 1 ∅ 0 ∗ atPos ER (recvCell c 6) 1 ∅ 0)
        ∗ ((aM : Memref sig .tc .vmem S1x1024 .f32).view.loc (c : Thread nD τ) ↦[(aM : Memref sig .tc .vmem S1x1024 .f32).view.set]{Transfers.shareDrop fullShare 7} accRow m ρ c)
        ∗ (accTok m ρ c 0 ∗ accTok m ρ c 1 ∗ accTok m ρ c 2 ∗ accTok m ρ c 3 ∗ accTok m ρ c 4 ∗ accTok m ρ c 5 ∗ accTok m ρ c 6)
        ∗ (slotPts c 0 (recvFill m ρ c) ∗ slotPts c 1 (recvFill m ρ c) ∗ slotPts c 2 (recvFill m ρ c) ∗ slotPts c 3 (recvFill m ρ c) ∗ slotPts c 4 (recvFill m ρ c) ∗ slotPts c 5 (recvFill m ρ c) ∗ slotPts c 6 (recvFill m ρ c))
        ∗ owes (c : Thread nD τ) 0 W
        ∗ (((c : Thread nD τ).loc cc0_stg0_0) ↦{fullShare} xstg m ρ c)
        ∗ (((c : Thread nD τ).loc cc0_stg1_0) ↦{fullShare} outRow m ρ c))
      ⊢ |={Set.univ}=> bodyPost m ρ c := by
  iintro ⟨HIs, HIr, HPs, HPr, Hd, HT, HL, Ho, Hx, Hout⟩
  imod (close_own m ρ K c) $$ [HIs HIr HPs HPr] with Hz
  · isplitl [HIs HIr]
    · iapply (pairs_seven (F := F) (fun j : Fin 7 => cellInv ER (ringRd m ρ) (K (c, some (false, j))) (sendCell c j))
        (fun j : Fin 7 => cellInv ER (ringRd m ρ) (K (c, some (true, j))) (recvCell c j)))
      isplitl [HIs] <;> iassumption
    · iapply (pairs_seven (F := F) (fun j : Fin 7 => atPos ER (sendCell c j) 1 ∅ 0) (fun j : Fin 7 => atPos ER (recvCell c j) 1 ∅ 0))
      isplitl [HPs] <;> iassumption
  imodintro
  unfold bodyPost Φ₁
  isplitl [Hd HT HL Hz]
  · isplitl [Hd HT]
    · iapply (acc_join_row m ρ c)
      isplitl [Hd] <;> iassumption
    isplitl [HL]
    · iapply (cPts_join c (recvFill m ρ c))
      iapply (chain_seven (F := F) (fun j : Fin 7 => slotPts c j (recvFill m ρ c)))
      iexact HL
    iexact Hz
  isplitl [Ho]
  · iexists W
    isplitr
    · ipureintro; exact fun _ _ => Or.inl trivial
    iexact Ho
  isplitl [Hx]
  · iexists (xstg m ρ c)
    isplitr
    · ipureintro; rfl
    iexact Hx
  · iexists (outRow m ρ c)
    isplitr
    · ipureintro; rfl
    iexact Hout

/-- info: 'Cert.KernelIdeal.Proto.body_finish' depends on axioms: [propext, Classical.choice, Quot.sound] -/
#guard_msgs in #print axioms body_finish

end Cert.KernelIdeal.Proto

end
-- ==== Proof.KernelIdeal.Body.lean ====
/-
  One device's body, stepped once at a symbolic device `c`.

  In program order: the seven signals, each paying duty `d` of the target's barrier cell with slot `6 - d` of
  `c`'s own receive buffer; the column sums of the block stored in the row buffer; the wait for the seven units
  of `c`'s barrier cell, which brings the seven lent slots, one per target; the row buffer cut into seven read
  shares and a remainder, one share lent to each copy; the local load through the remainder; per slot the
  receive wait, which brings the slot holding the sender's row, and the load of it; the result — the row plus
  the seven received rows, scaled — stored; the seven send waits, which bring the read shares back; then the
  row buffer and the receive buffer are whole again and the fourteen own cells are closed at zero.
-/
import proofs.«900949_g7700000000000950_dist_mean_ax0_shard0_i_m2048_n1024_v7x_i8_f32_1_alg».proof.Proof.KernelIdeal.Steps
import proofs.«900949_g7700000000000950_dist_mean_ax0_shard0_i_m2048_n1024_v7x_i8_f32_1_alg».proof.Proof.KernelIdeal.BodyFinish

noncomputable section

namespace Cert.KernelIdeal.Proto

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven and fifteen, written out -/

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bigSep_fifteen {M : Type} [URA M] (Φ : CellIx → sProp M) :
    bigSep Finset.univ Φ = iprop(Φ (none) ∗ Φ (some (false, 0)) ∗ Φ (some (false, 1)) ∗ Φ (some (false, 2)) ∗ Φ (some (false, 3)) ∗ Φ (some (false, 4)) ∗ Φ (some (false, 5)) ∗ Φ (some (false, 6)) ∗ Φ (some (true, 0)) ∗ Φ (some (true, 1)) ∗ Φ (some (true, 2)) ∗ Φ (some (true, 3)) ∗ Φ (some (true, 4)) ∗ Φ (some (true, 5)) ∗ Φ (some (true, 6))) :=
  bigSep_univ_eq_bigSepL [none, some (false, 0), some (false, 1), some (false, 2), some (false, 3), some (false, 4), some (false, 5), some (false, 6), some (true, 0), some (true, 1), some (true, 2), some (true, 3), some (true, 4), some (true, 5), some (true, 6)] (by decide) (by decide) Φ

/-- The receive buffer whole is its seven slots, written out. -/
theorem cPts_split7 (c : Dev nD) (g0 : Buf (Elt F) ((c : Thread nD τ).loc cc0_scratch1)) :
    (((c : Thread nD τ).loc cc0_scratch1) ↦{fullShare} g0 : sProp 𝕄)
      ⊢ iprop(((slotM 0).view.loc (c : Thread nD τ) ↦[(slotM 0).view.set]{fullShare} g0 : sProp 𝕄)
          ∗ ((slotM 1).view.loc (c : Thread nD τ) ↦[(slotM 1).view.set]{fullShare} g0 : sProp 𝕄)
          ∗ ((slotM 2).view.loc (c : Thread nD τ) ↦[(slotM 2).view.set]{fullShare} g0 : sProp 𝕄)
          ∗ ((slotM 3).view.loc (c : Thread nD τ) ↦[(slotM 3).view.set]{fullShare} g0 : sProp 𝕄)
          ∗ ((slotM 4).view.loc (c : Thread nD τ) ↦[(slotM 4).view.set]{fullShare} g0 : sProp 𝕄)
          ∗ ((slotM 5).view.loc (c : Thread nD τ) ↦[(slotM 5).view.set]{fullShare} g0 : sProp 𝕄)
          ∗ ((slotM 6).view.loc (c : Thread nD τ) ↦[(slotM 6).view.set]{fullShare} g0 : sProp 𝕄)) :=
  (cPts_split c g0).trans (Entails.of_eq (bigSep_fin7 _))

/-- What the barrier wait brings, written out: duty `d` lends slot `6 - d` of the device `6 - d + 1` places on, with the
    reached-mark of that slot's receive cell. -/
theorem rest_bar7 (c : Dev nD) :
    bigSep ((ringRd (F := F) m ρ).duties (barCell c) 0 \ ∅) (fun d => (ringRd (F := F) m ρ).payload (barCell c) 0 d)
      = iprop(((∃ f, ((slotM 6).view.loc (target c 6 : Thread nD τ) ↦[(slotM 6).view.set]{fullShare} f : sProp 𝕄)) ∗ reached ER (recvCell (target c 6) 6) 0)
          ∗ ((∃ f, ((slotM 5).view.loc (target c 5 : Thread nD τ) ↦[(slotM 5).view.set]{fullShare} f : sProp 𝕄)) ∗ reached ER (recvCell (target c 5) 5) 0)
          ∗ ((∃ f, ((slotM 4).view.loc (target c 4 : Thread nD τ) ↦[(slotM 4).view.set]{fullShare} f : sProp 𝕄)) ∗ reached ER (recvCell (target c 4) 4) 0)
          ∗ ((∃ f, ((slotM 3).view.loc (target c 3 : Thread nD τ) ↦[(slotM 3).view.set]{fullShare} f : sProp 𝕄)) ∗ reached ER (recvCell (target c 3) 3) 0)
          ∗ ((∃ f, ((slotM 2).view.loc (target c 2 : Thread nD τ) ↦[(slotM 2).view.set]{fullShare} f : sProp 𝕄)) ∗ reached ER (recvCell (target c 2) 2) 0)
          ∗ ((∃ f, ((slotM 1).view.loc (target c 1 : Thread nD τ) ↦[(slotM 1).view.set]{fullShare} f : sProp 𝕄)) ∗ reached ER (recvCell (target c 1) 1) 0)
          ∗ ((∃ f, ((slotM 0).view.loc (target c 0 : Thread nD τ) ↦[(slotM 0).view.set]{fullShare} f : sProp 𝕄)) ∗ reached ER (recvCell (target c 0) 0) 0)) := by
  rw [rest_bar, bigSep_fin7]; rfl

/-- The row buffer, named as the store that filled it names it, cut into its read shares. -/
theorem acc_split_stored (c : Dev nD) :
    (((aM : Memref sig .tc .vmem S1x1024 .f32).access (Rect.unit (s := S1x1024) ![0, 0] S1x1024.size inb_S1x1024_S1x1024_0_0) : View sig .tc _ _ _).loc (c : Thread nD τ) ↦{fullShare} accRow m ρ c : sProp 𝕄)
      ⊢ iprop(((aM : Memref sig .tc .vmem S1x1024 .f32).view.loc (c : Thread nD τ) ↦[(aM : Memref sig .tc .vmem S1x1024 .f32).view.set]{Transfers.shareDrop fullShare 7} accRow m ρ c)
          ∗ accTok m ρ c 0 ∗ accTok m ρ c 1 ∗ accTok m ρ c 2 ∗ accTok m ρ c 3 ∗ accTok m ρ c 4 ∗ accTok m ρ c 5 ∗ accTok m ρ c 6) :=
  acc_split_row m ρ c

/-- A slot's points-to, named through the whole receive buffer's view as a load returns it, is the slot's. -/
theorem slot_back (c : Dev nD) (j : Fin 7) (f : Buf (Elt F) ((cM : Memref sig .tc .vmem S7x1x1024 .f32).view.loc (c : Thread nD τ))) :
    ((cM : Memref sig .tc .vmem S7x1x1024 .f32).view.loc (c : Thread nD τ) ↦[(slotM j).view.set]{fullShare} f : sProp 𝕄) ⊢ slotPts c j f :=
  Entails.of_eq rfl

set_option maxHeartbeats 4000000 in
set_option maxRecDepth 65536 in
theorem sound_body : BodySound (F := F) m ρ := by
  intro K c Kt
  unfold bodyPre ghost invs positions marks payToks creds aPts cPts theBody
  simp only [bigSep_fin7, bigSep_fifteen]
  simp only [cc0_body_eq_skeleton]; unfold cc0_body_skel
  simp only [k0_part11_eq_skeleton]; unfold k0_part11_skel
  simp only [k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold k0_part10_skel k0_part9_skel k0_part8_skel k0_part7_skel k0_part6_skel k0_part5_skel k0_part4_skel k0_part3_skel k0_part2_skel k0_part1_skel
  simp only [semSignalWord, semWaitWord, Prog.lift, Prog.bind_op, Prog.bind_ret, Prog.pure_eq_ret, wp_deviceId]
  simp only [Mesh.sig1_eq c, Mesh.sig2_eq c, Mesh.sig3_eq c, Mesh.sig4_eq c, Mesh.sig5_eq c, Mesh.sig6_eq c, Mesh.sig7_eq c, Mesh.cpy1_eq c, Mesh.cpy2_eq c, Mesh.cpy3_eq c, Mesh.cpy4_eq c, Mesh.cpy5_eq c, Mesh.cpy6_eq c, Mesh.cpy7_eq c]
  iintro ⟨⟨⟨⟨⟨⟨#HIb, #HIs0, #HIs1, #HIs2, #HIs3, #HIs4, #HIs5, #HIs6, #HIr0, #HIr1, #HIr2, #HIr3, #HIr4, #HIr5, #HIr6⟩, ⟨#HIbt0, #HIrt0⟩, ⟨#HIbt1, #HIrt1⟩, ⟨#HIbt2, #HIrt2⟩, ⟨#HIbt3, #HIrt3⟩, ⟨#HIbt4, #HIrt4⟩, ⟨#HIbt5, #HIrt5⟩, ⟨#HIbt6, #HIrt6⟩⟩, ⟨HaB, HaS0, HaS1, HaS2, HaS3, HaS4, HaS5, HaS6, HaR0, HaR1, HaR2, HaR3, HaR4, HaR5, HaR6⟩, ⟨⟨#RbT0, #RrT0, #RS0, #RR0⟩, ⟨#RbT1, #RrT1, #RS1, #RR1⟩, ⟨#RbT2, #RrT2, #RS2, #RR2⟩, ⟨#RbT3, #RrT3, #RS3, #RR3⟩, ⟨#RbT4, #RrT4, #RS4, #RR4⟩, ⟨#RbT5, #RrT5, #RS5, #RR5⟩, ⟨#RbT6, #RrT6, #RS6, #RR6⟩⟩, ⟨TbT0, TrT0, TS0⟩, ⟨TbT1, TrT1, TS1⟩, ⟨TbT2, TrT2, TS2⟩, ⟨TbT3, TrT3, TS3⟩, ⟨TbT4, TrT4, TS4⟩, ⟨TbT5, TrT5, TS5⟩, ⟨TbT6, TrT6, TS6⟩⟩, ⟨HcB, HcR0, HcR1, HcR2, HcR3, HcR4, HcR5, HcR6⟩, #Hlev, ⟨%f0, Ha⟩, ⟨%g0, Hc⟩⟩,
    Ho, ⟨%d0, %x0, %hx0, Hx⟩, ⟨%d1, %y0, %hy0, Hout⟩⟩, Hk⟩
  have hx : x0 = xstg m ρ c := by rw [hx0]; unfold Dat.before; rw [if_pos (fetch0_0 t₀)]; rfl
  subst hx
  unfold Dat.owesAt Pipeline.owesWithin
  icases Ho with ⟨%W, %hW, HO⟩
  rw [show (dats m ρ 0 c).owed t₀.castSucc = sigDebts c 7 from rfl]
  ihave Hsl := (cPts_split7 c g0) $$ Hc
  icases Hsl with ⟨Hs0, Hs1, Hs2, Hs3, Hs4, Hs5, Hs6⟩
  -- signal 0: duty 0 of the barrier cell of the device 1 on, lending slot 6
  iapply (step_signal m ρ K c (target c 0) 0 6 rfl rfl rfl (sigDebts c 6) rfl W g0) $$ [HO TbT0 Hs6]
  · isplitr; · iexact HIbt0
    isplitl [HO]; · iexact HO
    isplitl [TbT0]; · iexact TbT0
    isplitl [Hs6]; · iexact Hs6
    isplitr; · iexact RR6
    iexact RbT0
  iintro HO
  -- signal 1: duty 1 of the barrier cell of the device 2 on, lending slot 5
  iapply (step_signal m ρ K c (target c 1) 1 5 rfl rfl rfl (sigDebts c 5) rfl W g0) $$ [HO TbT1 Hs5]
  · isplitr; · iexact HIbt1
    isplitl [HO]; · iexact HO
    isplitl [TbT1]; · iexact TbT1
    isplitl [Hs5]; · iexact Hs5
    isplitr; · iexact RR5
    iexact RbT1
  iintro HO
  -- signal 2: duty 2 of the barrier cell of the device 3 on, lending slot 4
  iapply (step_signal m ρ K c (target c 2) 2 4 rfl rfl rfl (sigDebts c 4) rfl W g0) $$ [HO TbT2 Hs4]
  · isplitr; · iexact HIbt2
    isplitl [HO]; · iexact HO
    isplitl [TbT2]; · iexact TbT2
    isplitl [Hs4]; · iexact Hs4
    isplitr; · iexact RR4
    iexact RbT2
  iintro HO
  -- signal 3: duty 3 of the barrier cell of the device 4 on, lending slot 3
  iapply (step_signal m ρ K c (target c 3) 3 3 rfl rfl rfl (sigDebts c 3) rfl W g0) $$ [HO TbT3 Hs3]
  · isplitr; · iexact HIbt3
    isplitl [HO]; · iexact HO
    isplitl [TbT3]; · iexact TbT3
    isplitl [Hs3]; · iexact Hs3
    isplitr; · iexact RR3
    iexact RbT3
  iintro HO
  -- signal 4: duty 4 of the barrier cell of the device 5 on, lending slot 2
  iapply (step_signal m ρ K c (target c 4) 4 2 rfl rfl rfl (sigDebts c 2) rfl W g0) $$ [HO TbT4 Hs2]
  · isplitr; · iexact HIbt4
    isplitl [HO]; · iexact HO
    isplitl [TbT4]; · iexact TbT4
    isplitl [Hs2]; · iexact Hs2
    isplitr; · iexact RR2
    iexact RbT4
  iintro HO
  -- signal 5: duty 5 of the barrier cell of the device 6 on, lending slot 1
  iapply (step_signal m ρ K c (target c 5) 5 1 rfl rfl rfl (sigDebts c 1) rfl W g0) $$ [HO TbT5 Hs1]
  · isplitr; · iexact HIbt5
    isplitl [HO]; · iexact HO
    isplitl [TbT5]; · iexact TbT5
    isplitl [Hs1]; · iexact Hs1
    isplitr; · iexact RR1
    iexact RbT5
  iintro HO
  -- signal 6: duty 6 of the barrier cell of the device 7 on, lending slot 0
  iapply (step_signal m ρ K c (target c 6) 6 0 rfl rfl rfl (sigDebts c 0) rfl W g0) $$ [HO TbT6 Hs0]
  · isplitr; · iexact HIbt6
    isplitl [HO]; · iexact HO
    isplitl [TbT6]; · iexact TbT6
    isplitl [Hs0]; · iexact Hs0
    isplitr; · iexact RR0
    iexact RbT6
  iintro HO
  -- the block loaded, its column sums stored in the row buffer
  iapply (wp_load 𝒱₀ (c : Thread nD τ) none Set.univ (m := xM) (Finset.subset_univ _)) $$ Hx; iintro Hx
  iapply (wp_load 𝒱₀ (c : Thread nD τ) none Set.univ (m := aM) (Finset.subset_univ _)) $$ Ha; iintro Ha
  iapply (wp_store 𝒱₀ (c : Thread nD τ) none Set.univ (m := aM) (r := (Rect.unit (s := S1x1024) ![0, 0] S1x1024.size inb_S1x1024_S1x1024_0_0)) (Mk := Finset.univ) (Finset.subset_univ _)) $$ Ha; iintro Ha
  rw [write_acc, acc_value]
  -- the wait for the seven units of the barrier cell, owing only the copies' credits: the seven lent slots come with it
  iapply (Rounds.wp_wait_rest_token 𝒱₀ ER (ringRd m ρ) (c : Thread nD τ) none (κ := K (c, none))
      (wpE_semWait_eq 𝒱₀ (c : Thread nD τ) none Set.univ) (Set.mem_univ _) () (O := copyDebts c 7) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar7 m ρ c)) $$ Hpay
  icases Hp with ⟨⟨⟨%n6, Hn6⟩, -⟩, ⟨⟨%n5, Hn5⟩, -⟩, ⟨⟨%n4, Hn4⟩, -⟩, ⟨⟨%n3, Hn3⟩, -⟩, ⟨⟨%n2, Hn2⟩, -⟩, ⟨⟨%n1, Hn1⟩, -⟩, ⟨⟨%n0, Hn0⟩, -⟩⟩
  -- the row buffer cut into seven read shares, one per copy, and a remainder for the local load
  ihave Hacc := (acc_split_stored m ρ c) $$ Ha
  icases Hacc with ⟨Har, Hat0, Hat1, Hat2, Hat3, Hat4, Hat5, Hat6⟩
  -- copy 0: the row into slot 0 of the device 1 on
  iapply (step_send m ρ K c _ 0 (Mesh.cpy1_eq c) n0 (copyDebts c 6) rfl (insert (SemLoc.reg barS, ()) W)) $$ [Hat0 Hn0 HO TS0 TrT0]
  · isplitr; · iexact HIs0
    isplitr; · iexact HIrt0
    isplitl [Hat0]; · iexact Hat0
    isplitl [Hn0]; · iexact Hn0
    isplitl [HO]; · iexact HO
    isplitl [TS0]; · iexact TS0
    isplitr; · iexact RS0
    isplitl [TrT0]; · iexact TrT0
    iexact RrT0
  iintro ⟨HcS0, HO⟩
  -- copy 1: the row into slot 1 of the device 2 on
  iapply (step_send m ρ K c _ 1 (Mesh.cpy2_eq c) n1 (copyDebts c 5) rfl (insert (SemLoc.reg barS, ()) W)) $$ [Hat1 Hn1 HO TS1 TrT1]
  · isplitr; · iexact HIs1
    isplitr; · iexact HIrt1
    isplitl [Hat1]; · iexact Hat1
    isplitl [Hn1]; · iexact Hn1
    isplitl [HO]; · iexact HO
    isplitl [TS1]; · iexact TS1
    isplitr; · iexact RS1
    isplitl [TrT1]; · iexact TrT1
    iexact RrT1
  iintro ⟨HcS1, HO⟩
  -- copy 2: the row into slot 2 of the device 3 on
  iapply (step_send m ρ K c _ 2 (Mesh.cpy3_eq c) n2 (copyDebts c 4) rfl (insert (SemLoc.reg barS, ()) W)) $$ [Hat2 Hn2 HO TS2 TrT2]
  · isplitr; · iexact HIs2
    isplitr; · iexact HIrt2
    isplitl [Hat2]; · iexact Hat2
    isplitl [Hn2]; · iexact Hn2
    isplitl [HO]; · iexact HO
    isplitl [TS2]; · iexact TS2
    isplitr; · iexact RS2
    isplitl [TrT2]; · iexact TrT2
    iexact RrT2
  iintro ⟨HcS2, HO⟩
  -- copy 3: the row into slot 3 of the device 4 on
  iapply (step_send m ρ K c _ 3 (Mesh.cpy4_eq c) n3 (copyDebts c 3) rfl (insert (SemLoc.reg barS, ()) W)) $$ [Hat3 Hn3 HO TS3 TrT3]
  · isplitr; · iexact HIs3
    isplitr; · iexact HIrt3
    isplitl [Hat3]; · iexact Hat3
    isplitl [Hn3]; · iexact Hn3
    isplitl [HO]; · iexact HO
    isplitl [TS3]; · iexact TS3
    isplitr; · iexact RS3
    isplitl [TrT3]; · iexact TrT3
    iexact RrT3
  iintro ⟨HcS3, HO⟩
  -- copy 4: the row into slot 4 of the device 5 on
  iapply (step_send m ρ K c _ 4 (Mesh.cpy5_eq c) n4 (copyDebts c 2) rfl (insert (SemLoc.reg barS, ()) W)) $$ [Hat4 Hn4 HO TS4 TrT4]
  · isplitr; · iexact HIs4
    isplitr; · iexact HIrt4
    isplitl [Hat4]; · iexact Hat4
    isplitl [Hn4]; · iexact Hn4
    isplitl [HO]; · iexact HO
    isplitl [TS4]; · iexact TS4
    isplitr; · iexact RS4
    isplitl [TrT4]; · iexact TrT4
    iexact RrT4
  iintro ⟨HcS4, HO⟩
  -- copy 5: the row into slot 5 of the device 6 on
  iapply (step_send m ρ K c _ 5 (Mesh.cpy6_eq c) n5 (copyDebts c 1) rfl (insert (SemLoc.reg barS, ()) W)) $$ [Hat5 Hn5 HO TS5 TrT5]
  · isplitr; · iexact HIs5
    isplitr; · iexact HIrt5
    isplitl [Hat5]; · iexact Hat5
    isplitl [Hn5]; · iexact Hn5
    isplitl [HO]; · iexact HO
    isplitl [TS5]; · iexact TS5
    isplitr; · iexact RS5
    isplitl [TrT5]; · iexact TrT5
    iexact RrT5
  iintro ⟨HcS5, HO⟩
  -- copy 6: the row into slot 6 of the device 7 on
  iapply (step_send m ρ K c _ 6 (Mesh.cpy7_eq c) n6 (copyDebts c 0) rfl (insert (SemLoc.reg barS, ()) W)) $$ [Hat6 Hn6 HO TS6 TrT6]
  · isplitr; · iexact HIs6
    isplitr; · iexact HIrt6
    isplitl [Hat6]; · iexact Hat6
    isplitl [Hn6]; · iexact Hn6
    isplitl [HO]; · iexact HO
    isplitl [TS6]; · iexact TS6
    isplitr; · iexact RS6
    isplitl [TrT6]; · iexact TrT6
    iexact RrT6
  iintro ⟨HcS6, HO⟩
  -- the local load of the row, through the remainder share
  iapply (wp_load 𝒱₀ (c : Thread nD τ) none Set.univ (m := aM) (by rw [View.set_whole]; exact Finset.subset_univ _)) $$ Har; iintro Har
  rw [read_acc]
  -- slot 0: the wait on its receive cell brings it holding the sender's row; the load reads it
  iapply (step_recvwait m ρ K c 0 (show (slotM 0).view.dmaCredit = N from rfl) (insert (SemLoc.reg barS, ()) W)) $$ [HcR0 HO HaR0]
  · isplitr; · iexact HIr0
    isplitl [HcR0]; · iexact HcR0
    isplitl [HO]; · iexact HO
    iexact HaR0
  iintro ⟨HO, HaR0, Hsl0⟩
  unfold slotPts
  iapply (wp_load 𝒱₀ (c : Thread nD τ) none Set.univ (m := cM) (load_slot_sub 0)) $$ Hsl0; iintro Hsl0
  -- slot 1: the wait on its receive cell brings it holding the sender's row; the load reads it
  iapply (step_recvwait m ρ K c 1 (show (slotM 1).view.dmaCredit = N from rfl) (insert (SemLoc.dma (recvSem 0), ()) (insert (SemLoc.reg barS, ()) W))) $$ [HcR1 HO HaR1]
  · isplitr; · iexact HIr1
    isplitl [HcR1]; · iexact HcR1
    isplitl [HO]; · iexact HO
    iexact HaR1
  iintro ⟨HO, HaR1, Hsl1⟩
  unfold slotPts
  iapply (wp_load 𝒱₀ (c : Thread nD τ) none Set.univ (m := cM) (load_slot_sub 1)) $$ Hsl1; iintro Hsl1
  -- slot 2: the wait on its receive cell brings it holding the sender's row; the load reads it
  iapply (step_recvwait m ρ K c 2 (show (slotM 2).view.dmaCredit = N from rfl) (insert (SemLoc.dma (recvSem 1), ()) (insert (SemLoc.dma (recvSem 0), ()) (insert (SemLoc.reg barS, ()) W)))) $$ [HcR2 HO HaR2]
  · isplitr; · iexact HIr2
    isplitl [HcR2]; · iexact HcR2
    isplitl [HO]; · iexact HO
    iexact HaR2
  iintro ⟨HO, HaR2, Hsl2⟩
  unfold slotPts
  iapply (wp_load 𝒱₀ (c : Thread nD τ) none Set.univ (m := cM) (load_slot_sub 2)) $$ Hsl2; iintro Hsl2
  -- slot 3: the wait on its receive cell brings it holding the sender's row; the load reads it
  iapply (step_recvwait m ρ K c 3 (show (slotM 3).view.dmaCredit = N from rfl) (insert (SemLoc.dma (recvSem 2), ()) (insert (SemLoc.dma (recvSem 1), ()) (insert (SemLoc.dma (recvSem 0), ()) (insert (SemLoc.reg barS, ()) W))))) $$ [HcR3 HO HaR3]
  · isplitr; · iexact HIr3
    isplitl [HcR3]; · iexact HcR3
    isplitl [HO]; · iexact HO
    iexact HaR3
  iintro ⟨HO, HaR3, Hsl3⟩
  unfold slotPts
  iapply (wp_load 𝒱₀ (c : Thread nD τ) none Set.univ (m := cM) (load_slot_sub 3)) $$ Hsl3; iintro Hsl3
  -- slot 4: the wait on its receive cell brings it holding the sender's row; the load reads it
  iapply (step_recvwait m ρ K c 4 (show (slotM 4).view.dmaCredit = N from rfl) (insert (SemLoc.dma (recvSem 3), ()) (insert (SemLoc.dma (recvSem 2), ()) (insert (SemLoc.dma (recvSem 1), ()) (insert (SemLoc.dma (recvSem 0), ()) (insert (SemLoc.reg barS, ()) W)))))) $$ [HcR4 HO HaR4]
  · isplitr; · iexact HIr4
    isplitl [HcR4]; · iexact HcR4
    isplitl [HO]; · iexact HO
    iexact HaR4
  iintro ⟨HO, HaR4, Hsl4⟩
  unfold slotPts
  iapply (wp_load 𝒱₀ (c : Thread nD τ) none Set.univ (m := cM) (load_slot_sub 4)) $$ Hsl4; iintro Hsl4
  -- slot 5: the wait on its receive cell brings it holding the sender's row; the load reads it
  iapply (step_recvwait m ρ K c 5 (show (slotM 5).view.dmaCredit = N from rfl) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W))))))) $$ [HcR5 HO HaR5]
  · isplitr; · iexact HIr5
    isplitl [HcR5]; · iexact HcR5
    isplitl [HO]; · iexact HO
    iexact HaR5
  iintro ⟨HO, HaR5, Hsl5⟩
  unfold slotPts
  iapply (wp_load 𝒱₀ (c : Thread nD τ) none Set.univ (m := cM) (load_slot_sub 5)) $$ Hsl5; iintro Hsl5
  -- slot 6: the wait on its receive cell brings it holding the sender's row; the load reads it
  iapply (step_recvwait m ρ K c 6 (show (slotM 6).view.dmaCredit = N from rfl) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W)))))))) $$ [HcR6 HO HaR6]
  · isplitr; · iexact HIr6
    isplitl [HcR6]; · iexact HcR6
    isplitl [HO]; · iexact HO
    iexact HaR6
  iintro ⟨HO, HaR6, Hsl6⟩
  unfold slotPts
  iapply (wp_load 𝒱₀ (c : Thread nD τ) none Set.univ (m := cM) (load_slot_sub 6)) $$ Hsl6; iintro Hsl6
  -- the result stored
  iapply (wp_load 𝒱₀ (c : Thread nD τ) none Set.univ (m := oM) (Finset.subset_univ _)) $$ Hout; iintro Hout
  iapply (wp_store 𝒱₀ (c : Thread nD τ) none Set.univ (m := oM) (r := (Rect.unit (s := S1x1024) ![0, 0] S1x1024.size inb_S1x1024_S1x1024_0_0)) (Mk := Finset.univ) (Finset.subset_univ _)) $$ Hout; iintro Hout
  rw [write_out, out_value]
  -- the wait on send cell 0: the read share lent to copy 0 comes back
  iapply (step_sendwait m ρ K c 0 rfl (insert (SemLoc.dma (recvSem 6), ()) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W))))))))) $$ [HcS0 HO HaS0]
  · isplitr; · iexact HIs0
    isplitl [HcS0]; · iexact HcS0
    isplitl [HO]; · iexact HO
    iexact HaS0
  iintro ⟨HO, HaS0, Hat0⟩
  -- the wait on send cell 1: the read share lent to copy 1 comes back
  iapply (step_sendwait m ρ K c 1 rfl (insert (SemLoc.dma (sendSem 0), ()) (insert (SemLoc.dma (recvSem 6), ()) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W)))))))))) $$ [HcS1 HO HaS1]
  · isplitr; · iexact HIs1
    isplitl [HcS1]; · iexact HcS1
    isplitl [HO]; · iexact HO
    iexact HaS1
  iintro ⟨HO, HaS1, Hat1⟩
  -- the wait on send cell 2: the read share lent to copy 2 comes back
  iapply (step_sendwait m ρ K c 2 rfl (insert (SemLoc.dma (sendSem 1), ()) (insert (SemLoc.dma (sendSem 0), ()) (insert (SemLoc.dma (recvSem 6), ()) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W))))))))))) $$ [HcS2 HO HaS2]
  · isplitr; · iexact HIs2
    isplitl [HcS2]; · iexact HcS2
    isplitl [HO]; · iexact HO
    iexact HaS2
  iintro ⟨HO, HaS2, Hat2⟩
  -- the wait on send cell 3: the read share lent to copy 3 comes back
  iapply (step_sendwait m ρ K c 3 rfl (insert (SemLoc.dma (sendSem 2), ()) (insert (SemLoc.dma (sendSem 1), ()) (insert (SemLoc.dma (sendSem 0), ()) (insert (SemLoc.dma (recvSem 6), ()) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W)))))))))))) $$ [HcS3 HO HaS3]
  · isplitr; · iexact HIs3
    isplitl [HcS3]; · iexact HcS3
    isplitl [HO]; · iexact HO
    iexact HaS3
  iintro ⟨HO, HaS3, Hat3⟩
  -- the wait on send cell 4: the read share lent to copy 4 comes back
  iapply (step_sendwait m ρ K c 4 rfl (insert (SemLoc.dma (sendSem 3), ()) (insert (SemLoc.dma (sendSem 2), ()) (insert (SemLoc.dma (sendSem 1), ()) (insert (SemLoc.dma (sendSem 0), ()) (insert (SemLoc.dma (recvSem 6), ()) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W))))))))))))) $$ [HcS4 HO HaS4]
  · isplitr; · iexact HIs4
    isplitl [HcS4]; · iexact HcS4
    isplitl [HO]; · iexact HO
    iexact HaS4
  iintro ⟨HO, HaS4, Hat4⟩
  -- the wait on send cell 5: the read share lent to copy 5 comes back
  iapply (step_sendwait m ρ K c 5 rfl (insert (SemLoc.dma (sendSem 4), ()) (insert (SemLoc.dma (sendSem 3), ()) (insert (SemLoc.dma (sendSem 2), ()) (insert (SemLoc.dma (sendSem 1), ()) (insert (SemLoc.dma (sendSem 0), ()) (insert (SemLoc.dma (recvSem 6), ()) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W)))))))))))))) $$ [HcS5 HO HaS5]
  · isplitr; · iexact HIs5
    isplitl [HcS5]; · iexact HcS5
    isplitl [HO]; · iexact HO
    iexact HaS5
  iintro ⟨HO, HaS5, Hat5⟩
  -- the wait on send cell 6: the read share lent to copy 6 comes back
  iapply (step_sendwait m ρ K c 6 rfl (insert (SemLoc.dma (sendSem 5), ()) (insert (SemLoc.dma (sendSem 4), ()) (insert (SemLoc.dma (sendSem 3), ()) (insert (SemLoc.dma (sendSem 2), ()) (insert (SemLoc.dma (sendSem 1), ()) (insert (SemLoc.dma (sendSem 0), ()) (insert (SemLoc.dma (recvSem 6), ()) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W))))))))))))))) $$ [HcS6 HO HaS6]
  · isplitr; · iexact HIs6
    isplitl [HcS6]; · iexact HcS6
    isplitl [HO]; · iexact HO
    iexact HaS6
  iintro ⟨HO, HaS6, Hat6⟩
  -- everything is back: the two buffers are joined whole and the fourteen own cells closed
  imod (body_finish m ρ K c (insert (SemLoc.dma (sendSem 6), ()) (insert (SemLoc.dma (sendSem 5), ()) (insert (SemLoc.dma (sendSem 4), ()) (insert (SemLoc.dma (sendSem 3), ()) (insert (SemLoc.dma (sendSem 2), ()) (insert (SemLoc.dma (sendSem 1), ()) (insert (SemLoc.dma (sendSem 0), ()) (insert (SemLoc.dma (recvSem 6), ()) (insert (SemLoc.dma (recvSem 5), ()) (insert (SemLoc.dma (recvSem 4), ()) (insert (SemLoc.dma (recvSem 3), ()) (insert (SemLoc.dma (recvSem 2), ()) (insert (SemLoc.dma (recvSem 1), ()) (insert (SemLoc.dma (recvSem 0), ()) (insert (SemLoc.reg barS, ()) W)))))))))))))))) $$ [HaS0 HaS1 HaS2 HaS3 HaS4 HaS5 HaS6 HaR0 HaR1 HaR2 HaR3 HaR4 HaR5 HaR6 Har Hat0 Hat1 Hat2 Hat3 Hat4 Hat5 Hat6 Hsl0 Hsl1 Hsl2 Hsl3 Hsl4 Hsl5 Hsl6 HO Hx Hout] with Hpost
  · isplitr
    ·
      isplitr; · iexact HIs0
      isplitr; · iexact HIs1
      isplitr; · iexact HIs2
      isplitr; · iexact HIs3
      isplitr; · iexact HIs4
      isplitr; · iexact HIs5
      iexact HIs6
    isplitr
    ·
      isplitr; · iexact HIr0
      isplitr; · iexact HIr1
      isplitr; · iexact HIr2
      isplitr; · iexact HIr3
      isplitr; · iexact HIr4
      isplitr; · iexact HIr5
      iexact HIr6
    isplitl [HaS0 HaS1 HaS2 HaS3 HaS4 HaS5 HaS6]
    ·
      isplitl [HaS0]; · iexact HaS0
      isplitl [HaS1]; · iexact HaS1
      isplitl [HaS2]; · iexact HaS2
      isplitl [HaS3]; · iexact HaS3
      isplitl [HaS4]; · iexact HaS4
      isplitl [HaS5]; · iexact HaS5
      iexact HaS6
    isplitl [HaR0 HaR1 HaR2 HaR3 HaR4 HaR5 HaR6]
    ·
      isplitl [HaR0]; · iexact HaR0
      isplitl [HaR1]; · iexact HaR1
      isplitl [HaR2]; · iexact HaR2
      isplitl [HaR3]; · iexact HaR3
      isplitl [HaR4]; · iexact HaR4
      isplitl [HaR5]; · iexact HaR5
      iexact HaR6
    isplitl [Har]; · iexact Har
    isplitl [Hat0 Hat1 Hat2 Hat3 Hat4 Hat5 Hat6]
    ·
      isplitl [Hat0]; · iexact Hat0
      isplitl [Hat1]; · iexact Hat1
      isplitl [Hat2]; · iexact Hat2
      isplitl [Hat3]; · iexact Hat3
      isplitl [Hat4]; · iexact Hat4
      isplitl [Hat5]; · iexact Hat5
      iexact Hat6
    isplitl [Hsl0 Hsl1 Hsl2 Hsl3 Hsl4 Hsl5 Hsl6]
    ·
      isplitl [Hsl0]; · iapply (slot_back c 0); iexact Hsl0
      isplitl [Hsl1]; · iapply (slot_back c 1); iexact Hsl1
      isplitl [Hsl2]; · iapply (slot_back c 2); iexact Hsl2
      isplitl [Hsl3]; · iapply (slot_back c 3); iexact Hsl3
      isplitl [Hsl4]; · iapply (slot_back c 4); iexact Hsl4
      isplitl [Hsl5]; · iapply (slot_back c 5); iexact Hsl5
      iapply (slot_back c 6); iexact Hsl6
    isplitl [HO]; · iexact HO
    isplitl [Hx]; · iexact Hx
    iexact Hout
  rw [wp_ret]
  imodintro
  iapply Hk
  iexact Hpost

/-- info: 'Cert.KernelIdeal.Proto.sound_body' depends on axioms: [propext, Classical.choice, Quot.sound] -/
#guard_msgs in #print axioms sound_body

end Cert.KernelIdeal.Proto

end
-- ==== Proof.lean ====
/-
  The distributed column mean on eight devices is its one-device reference.

  The whole array `x` has 16384 rows and 1024 columns; device `k` of the eight holds block `k`, 2048 rows. Each
  device sums its block's columns into a row, tells its seven peers it has entered (one unit on each peer's
  barrier cell, lending with it one slot of its own receive buffer), waits for the seven units it is owed, copies
  its row into the slot each peer lent it, waits for the seven rows copied to it, adds them to its own row in a
  fixed order round the ring and scales by 2⁻¹⁴, and waits for its seven copies to have read their source. The
  reference sums all 16384 rows and divides by 16384.

  Every device therefore ends with the same row: a sum over the eight blocks, taken in an order that depends on
  the device, of the sums over each block's rows. Sums of extended reals may be regrouped and reordered freely,
  and dividing by 16384 is multiplying by 2⁻¹⁴ on every extended real, so that row is the reference's, whatever
  the inputs hold. The frames are the same run with the value dropped; the idealization rewrote no operation.

  The proof is in the modules this one imports: each device's value as one function of the eight blocks (ValueSpec), the ring and the device chains (Mesh), the protocol as a schedule of
  rounds (Sched), what a device holds and owes (Proto, Levels), the receive buffer by slots (Slots), the rules at
  this schedule (Steps), one device's body (Body, BodyEnd, BodyFinish), the launch of the whole mesh (LaunchGhost,
  LaunchRun), the values (SumLaw, RefValue) and the five conjuncts put together (Assembly).
-/
import proofs.«900949_g7700000000000950_dist_mean_ax0_shard0_i_m2048_n1024_v7x_i8_f32_1_alg».proof.Proof.Assembly
import proofs.«900949_g7700000000000950_dist_mean_ax0_shard0_i_m2048_n1024_v7x_i8_f32_1_alg».proof.Proof.KernelIdeal.Body
import proofs.«900949_g7700000000000950_dist_mean_ax0_shard0_i_m2048_n1024_v7x_i8_f32_1_alg».proof.Proof.Kernel.Body

noncomputable section

namespace Cert.Proof

open Idealize.ShloMosaic

theorem claim : Cert.Claim :=
  Cert.Assembly.claim_of (fun m ρ => Cert.Kernel.Proto.sound_body m ρ) (fun m ρ => Cert.KernelIdeal.Proto.sound_body m ρ)

end Cert.Proof

end
